-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v60)) (v2 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v60) = v1 c
          ∧ r.2.mem ((c.tc : Thread Cert.KernelIdeal.nD Cert.KernelIdeal.τ).loc Cert.KernelIdeal.main_v2_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v4) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000 : Shape := ⟨1, ![100000]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S2x128x128 : Shape := ⟨3, ![2, 128, 128]⟩
abbrev S2x128 : Shape := ⟨2, ![2, 128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000 : S_.BroadcastsInDim S100000 (![] : Fin 0 → Fin S100000.rank)
  reducesTo_S100000_S_d0 : S100000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S1 .f32) (main_arg13 : FVec F S128x1 .f32) (main_arg14 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S128x1 .f32 := Host.absf main_arg13
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg8 : FVec F S2x128 .f32) (main_arg9 : FVec F S2x128x128 .f32) (main_arg10 : FVec F S2x128 .f32) (main_arg11 : FVec F S128x1 .f32) (main_arg12 : FVec F S1 .f32) (main_arg13 : FVec F S128x1 .f32) (main_arg14 : FVec F S1 .f32) (main_v33 : IVec S_ 1) : IVec S_ 1 :=
  let main_v34 : FVec F S2x128 .f32 := Host.absf main_arg8
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x128x128 .f32 := Host.absf main_arg9
  let main_cst_14 : FVec F S_ .f32 := constant S_ .f32 0x7F800000#32
  let main_v40 : FVec F S2x128x128 .f32 := broadcastInDim S2x128x128 ![] bcast_S_S2x128x128 main_cst_14
  let main_v41 : IVec S2x128x128 1 := cmpf .olt main_v39 main_v40
  let main_c_15 : IVec S_ 1 := constantI S_ 1 1#1
  let main_v42 : IVec S_ 1 := (fun x v => Host.reduce IntOp.andi x v reducesTo_S2x128x128_S_d0_1_2 h_S_) main_v41 main_c_15
  let main_v43 : IVec S_ 1 := andi main_v38 main_v42
  let main_v44 : FVec F S2x128 .f32 := Host.absf main_arg10
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S128x1 .f32 := Host.absf main_arg11
  let main_cst_18 : FVec F S_ .f32 := constant S_ .f32 0x7F800000#32
  let main_v50 : FVec F S128x1 .f32 := broadcastInDim S128x1 ![] bcast_S_S128x1 main_cst_18
  fn_part3 (F := F) main_arg12 main_arg13 main_arg14 main_v48 main_v49 main_v50

def fn_part1 {F : FTy → Type} [FloatOps F] (main_arg5 : FVec F S64x64 .f32) (main_arg6 : FVec F S64 .f32) (main_arg7 : FVec F S2x128x128 .f32) (main_arg8 : FVec F S2x128 .f32) (main_arg9 : FVec F S2x128x128 .f32) (main_arg10 : FVec F S2x128 .f32) (main_arg11 : FVec F S128x1 .f32) (main_arg12 : FVec F S1 .f32) (main_arg13 : FVec F S128x1 .f32) (main_arg14 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S2x128x128 .f32 := Host.absf main_arg7
  let main_cst_10 : FVec F S_ .f32 := constant S_ .f32 0x7F800000#32
  let main_v30 : FVec F S2x128x128 .f32 := broadcastInDim S2x128x128 ![] bcast_S_S2x128x128 main_cst_10
  let main_v31 : IVec S2x128x128 1 := cmpf .olt main_v29 main_v30
  let main_c_11 : IVec S_ 1 := constantI S_ 1 1#1
  let main_v32 : IVec S_ 1 := (fun x v => Host.reduce IntOp.andi x v reducesTo_S2x128x128_S_d0_1_2 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x128 .f32) (main_arg1 : FVec F S100000 .f32) (main_arg2 : IVec S2x1600000 32) (main_arg3 : FVec F S128x64 .f32) (main_arg4 : FVec F S64 .f32) (main_arg5 : FVec F S64x64 .f32) (main_arg6 : FVec F S64 .f32) (main_arg7 : FVec F S2x128x128 .f32) (main_arg8 : FVec F S2x128 .f32) (main_arg9 : FVec F S2x128x128 .f32) (main_arg10 : FVec F S2x128 .f32) (main_arg11 : FVec F S128x1 .f32) (main_arg12 : FVec F S1 .f32) (main_arg13 : FVec F S128x1 .f32) (main_arg14 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000 .f32 := Host.absf main_arg1
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x128 : Shape := ⟨2, ![100000, 128]⟩
abbrev S100000 : Shape := ⟨1, ![100000]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S2x128x128 : Shape := ⟨3, ![2, 128, 128]⟩
abbrev S2x128 : Shape := ⟨2, ![2, 128]⟩
abbrev S128x1 : Shape := ⟨2, ![128, 1]⟩
abbrev S1 : Shape := ⟨1, ![1]⟩
abbrev S100000x1 : Shape := ⟨2, ![100000, 1]⟩
abbrev S1x64 : Shape := ⟨2, ![1, 64]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x1 : Shape := ⟨2, ![1, 1]⟩

abbrev nBuf : Space → Nat
  | .hbm => 92
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S100000, .f32⟩
  | .hbm, ⟨2, _⟩ => ⟨S2x1600000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S2x128x128, .f32⟩
  | .hbm, ⟨8, _⟩ => ⟨S2x128, .f32⟩
  | .hbm, ⟨9, _⟩ => ⟨S2x128x128, .f32⟩
  | .hbm, ⟨10, _⟩ => ⟨S2x128, .f32⟩
  | .hbm, ⟨11, _⟩ => ⟨S128x1, .f32⟩
  | .hbm, ⟨12, _⟩ => ⟨S1, .f32⟩
  | .hbm, ⟨13, _⟩ => ⟨S128x1, .f32⟩
  | .hbm, ⟨14, _⟩ => ⟨S1, .f32⟩
  | .hbm, ⟨15, _⟩ => ⟨S100000x1, .f32⟩
  | .hbm, ⟨16, _⟩ => ⟨S1x64, .f32⟩
  | .hbm, ⟨17, _⟩ => ⟨S100000x64, .f32⟩
  | .hbm, ⟨18, _⟩ => ⟨S100000x64, .f32⟩
  | .hbm, ⟨19, _⟩ => ⟨S100000, .i32⟩
  | .hbm, ⟨20, _⟩ => ⟨S1x1600000, .i32⟩
  | .hbm, ⟨21, _⟩ => ⟨S1600000, .i32⟩
  | .hbm, ⟨22, _⟩ => ⟨S1700000, .i32⟩
  | .hbm, ⟨23, _⟩ => ⟨S1x1600000, .i32⟩
  | .hbm, ⟨24, _⟩ => ⟨S1600000, .i32⟩
  | .hbm, ⟨25, _⟩ => ⟨S1700000, .i32⟩
  | .hbm, ⟨26, _⟩ => ⟨S_, .f32⟩
  | .hbm, ⟨27, _⟩ => ⟨S1700000, .f32⟩
  | .hbm, ⟨28, _⟩ => ⟨S_, .f32⟩
  | .hbm, ⟨29, _⟩ => ⟨S100000, .f32⟩
  | .hbm, ⟨30, _⟩ => ⟨S1700000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .i1⟩
  | .hbm, ⟨35, _⟩ => ⟨S100000, .f32⟩
  | .hbm, ⟨36, _⟩ => ⟨S_, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000, .f32⟩
  | .hbm, ⟨58, _⟩ => ⟨S1700000, .f32⟩
  | .hbm, ⟨59, _⟩ => ⟨S_, .i32⟩
  | .hbm, ⟨60, _⟩ => ⟨S1700000, .i32⟩
  | .hbm, ⟨61, _⟩ => ⟨S1700000, .i1⟩
  | .hbm, ⟨62, _⟩ => ⟨S_, .i32⟩
  | .hbm, ⟨63, _⟩ => ⟨S1700000, .i32⟩
  | .hbm, ⟨64, _⟩ => ⟨S1700000, .i32⟩
  | .hbm, ⟨65, _⟩ => ⟨S1700000, .i32⟩
  | .hbm, ⟨66, _⟩ => ⟨S1700000x1, .i32⟩
  | .hbm, ⟨67, _⟩ => ⟨S1700000x64, .f32⟩
  | .hbm, ⟨68, _⟩ => ⟨S1700000x1, .f32⟩
  | .hbm, ⟨69, _⟩ => ⟨S1700000x64, .f32⟩
  | .hbm, ⟨70, _⟩ => ⟨S1700000x64, .f32⟩
  | .hbm, ⟨71, _⟩ => ⟨S_, .f32⟩
  | .hbm, ⟨72, _⟩ => ⟨S100000x64, .f32⟩
  | .hbm, ⟨73, _⟩ => ⟨S1700000x1, .i32⟩
  | .hbm, ⟨74, _⟩ => ⟨S100000x64, .f32⟩
  | .hbm, ⟨75, _⟩ => ⟨S1x128x128, .f32⟩
  | .hbm, ⟨76, _⟩ => ⟨S128x128, .f32⟩
  | .hbm, ⟨77, _⟩ => ⟨S1x128, .f32⟩
  | .hbm, ⟨78, _⟩ => ⟨S128, .f32⟩
  | .hbm, ⟨79, _⟩ => ⟨S1x128x128, .f32⟩
  | .hbm, ⟨80, _⟩ => ⟨S128x128, .f32⟩
  | .hbm, ⟨81, _⟩ => ⟨S1x128, .f32⟩
  | .hbm, ⟨82, _⟩ => ⟨S128, .f32⟩
  | .hbm, ⟨83, _⟩ => ⟨S1x64, .f32⟩
  | .hbm, ⟨84, _⟩ => ⟨S1x128, .f32⟩
  | .hbm, ⟨85, _⟩ => ⟨S1x128, .f32⟩
  | .hbm, ⟨86, _⟩ => ⟨S1x1, .f32⟩
  | .hbm, ⟨87, _⟩ => ⟨S1x1, .f32⟩
  | .hbm, ⟨88, _⟩ => ⟨S100000x1, .f32⟩
  | .hbm, ⟨89, _⟩ => ⟨S100000x1, .f32⟩
  | .hbm, ⟨90, _⟩ => ⟨S100000, .f32⟩
  | .hbm, ⟨91, _⟩ => ⟨S100000, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S1x64, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S128x1, .f32⟩
  | .local _ .vmem, ⟨21, _⟩ => ⟨S1x1, .f32⟩
  | .local _ .vmem, ⟨22, _⟩ => ⟨S128x1, .f32⟩
  | .local _ .vmem, ⟨23, _⟩ => ⟨S1x1, .f32⟩
  | .local _ .vmem, ⟨24, _⟩ => ⟨S5000x1, .f32⟩
  | .local _ .vmem, ⟨25, _⟩ => ⟨S5000x1, .f32⟩
  | .local _ .vmem, ⟨26, _⟩ => ⟨S5000x1, .f32⟩
  | .local _ .vmem, ⟨27, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2_0 : Ref sig .tc := ⟨.hbm, 17, rfl⟩
abbrev main_v2_1 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_cst_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v17 : Ref sig .tc := ⟨.hbm, 39, rfl⟩
abbrev main_c : Ref sig .tc := ⟨.hbm, 40, rfl⟩
abbrev main_v18 : Ref sig .tc := ⟨.hbm, 41, rfl⟩
abbrev main_v19 : Ref sig .tc := ⟨.hbm, 42, rfl⟩
abbrev main_c_3 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_4 : Ref sig .tc := ⟨.hbm, 49, rfl⟩
abbrev main_v25 : Ref sig .tc := ⟨.hbm, 50, rfl⟩
abbrev main_v26 : Ref sig .tc := ⟨.hbm, 51, rfl⟩
abbrev main_c_5 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_6 : Ref sig .tc := ⟨.hbm, 59, rfl⟩
abbrev main_v33 : Ref sig .tc := ⟨.hbm, 60, rfl⟩
abbrev main_v34 : Ref sig .tc := ⟨.hbm, 61, rfl⟩
abbrev main_c_7 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_8 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59_0 : Ref sig .tc := ⟨.hbm, 88, rfl⟩
abbrev main_v59_1 : Ref sig .tc := ⟨.hbm, 89, rfl⟩
abbrev main_v60 : Ref sig .tc := ⟨.hbm, 90, rfl⟩
abbrev main_v61 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg11_1 : Ref sig .tc := ⟨.vmem, 25, rfl⟩
abbrev cc1_stg12_0 : Ref sig .tc := ⟨.vmem, 26, rfl⟩
abbrev cc1_stg12_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem10_0 : DmaSem sig := 23
abbrev cc1_sem11_0 : DmaSem sig := 24
abbrev cc1_sem11_1 : DmaSem sig := 25
abbrev cc1_sem12_0 : DmaSem sig := 26
abbrev cc1_sem12_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S5000x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S5000x1 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  shapeCasts_S100000_S100000x1 : S100000.ShapeCasts S100000x1
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  slices_S2x128x128_S1x128x128_1_0_0 : S2x128x128.Slices ![1, 0, 0] S1x128x128
  shapeCasts_S1x128x128_S128x128 : S1x128x128.ShapeCasts S128x128
  slices_S2x128_S1x128_1_0 : S2x128.Slices ![1, 0] S1x128
  shapeCasts_S1x128_S128 : S1x128.ShapeCasts S128
  shapeCasts_S128_S1x128 : S128.ShapeCasts S1x128
  shapeCasts_S1_S1x1 : S1.ShapeCasts S1x1
  shapeCasts_S5000x64_S5000x64 : S5000x64.ShapeCasts S5000x64
  concatenates_S5000x64_S5000x64_S5000x128_d1 : Shape.Concatenates [S5000x64, S5000x64] S5000x128 1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S100000x1_S100000 : S100000x1.ShapeCasts S100000
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x1.size a ≤ S128x1.size a
  hwx1_7 : ∀ i : grid1.Coords, EltTy.bits .f32 = 32 ∨ (Rect.block (s := S128x1) S128x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x1.size a ≤ S128x1.size a
  hwx1_9 : ∀ i : grid1.Coords, EltTy.bits .f32 = 32 ∨ (Rect.block (s := S128x1) S128x1.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x1.size a ≤ S1x1.size a
  hwx1_10 : ∀ i : grid1.Coords, EltTy.bits .f32 = 32 ∨ (Rect.block (s := S1x1) S1x1.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S5000x1.size a ≤ S100000x1.size a
  hwx1_11 : ∀ i : grid1.Coords, EltTy.bits .f32 = 32 ∨ (Rect.block (s := S100000x1) S5000x1.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S5000x1.size a ≤ S100000x1.size a
  hwx1_12 : ∀ i : grid1.Coords, EltTy.bits .f32 = 32 ∨ (Rect.block (s := S100000x1) S5000x1.size (cc1_transform_12 i) (hinb1_12 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S5000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v2_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v54) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v55) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v56) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S128x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v57) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg13) S128x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v58) S1x1.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v59_0) S5000x1.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v59_1) S5000x1.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S100000x128 : Shape := ⟨2, ![100000, 128]⟩
abbrev S100000 : Shape := ⟨1, ![100000]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S2x128x128 : Shape := ⟨3, ![2, 128, 128]⟩
abbrev S2x128 : Shape := ⟨2, ![2, 128]⟩
abbrev S128x1 : Shape := ⟨2, ![128, 1]⟩
abbrev S1 : Shape := ⟨1, ![1]⟩
abbrev S100000x64 : Shape := ⟨2, ![100000, 64]⟩
abbrev S1x64 : Shape := ⟨2, ![1, 64]⟩
abbrev S_ : Shape := ⟨0, ![]⟩
abbrev S100000x1 : Shape := ⟨2, ![100000, 1]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x64 : Shape := ⟨2, ![1700000, 64]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x1 : Shape := ⟨2, ![1, 1]⟩

abbrev nBuf : Space → Nat
  | .hbm => 140
  | .vmem => 0
  | .smem => 0
  | _ => 0

abbrev hbmTy0_0 (i : Nat) : BufTy := match i % 128 with
  | 0 => ⟨S100000x128, .f32⟩
  | 1 => ⟨S100000, .f32⟩
  | 2 => ⟨S2x1600000, .i32⟩
  | 3 => ⟨S128x64, .f32⟩
  | 4 => ⟨S64, .f32⟩
  | 5 => ⟨S64x64, .f32⟩
  | 6 => ⟨S64, .f32⟩
  | 7 => ⟨S2x128x128, .f32⟩
  | 8 => ⟨S2x128, .f32⟩
  | 9 => ⟨S2x128x128, .f32⟩
  | 10 => ⟨S2x128, .f32⟩
  | 11 => ⟨S128x1, .f32⟩
  | 12 => ⟨S1, .f32⟩
  | 13 => ⟨S128x1, .f32⟩
  | 14 => ⟨S1, .f32⟩
  | 15 => ⟨S100000x64, .f32⟩
  | 16 => ⟨S1x64, .f32⟩
  | 17 => ⟨S100000x64, .f32⟩
  | 18 => ⟨S100000x64, .f32⟩
  | 19 => ⟨S_, .f32⟩
  | 20 => ⟨S100000x64, .f32⟩
  | 21 => ⟨S100000x64, .f32⟩
  | 22 => ⟨S100000x1, .f32⟩
  | 23 => ⟨S100000x64, .f32⟩
  | 24 => ⟨S100000x64, .f32⟩
  | 25 => ⟨S100000x64, .f32⟩
  | 26 => ⟨S100000, .i32⟩
  | 27 => ⟨S1x1600000, .i32⟩
  | 28 => ⟨S1600000, .i32⟩
  | 29 => ⟨S1700000, .i32⟩
  | 30 => ⟨S1x1600000, .i32⟩
  | 31 => ⟨S1600000, .i32⟩
  | 32 => ⟨S1700000, .i32⟩
  | 33 => ⟨S_, .f32⟩
  | 34 => ⟨S1700000, .f32⟩
  | 35 => ⟨S_, .f32⟩
  | 36 => ⟨S100000, .f32⟩
  | 37 => ⟨S1700000x1, .i32⟩
  | 38 => ⟨S100000, .f32⟩
  | 39 => ⟨S_, .f32⟩
  | 40 => ⟨S100000, .f32⟩
  | 41 => ⟨S100000, .i1⟩
  | 42 => ⟨S100000, .f32⟩
  | 43 => ⟨S_, .f32⟩
  | 44 => ⟨S_, .f32⟩
  | 45 => ⟨S100000, .f32⟩
  | 46 => ⟨S100000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000, .f32⟩
  | 65 => ⟨S1700000, .f32⟩
  | 66 => ⟨S_, .i32⟩
  | 67 => ⟨S1700000, .i32⟩
  | 68 => ⟨S1700000, .i1⟩
  | 69 => ⟨S_, .i32⟩
  | 70 => ⟨S1700000, .i32⟩
  | 71 => ⟨S1700000, .i32⟩
  | 72 => ⟨S1700000, .i32⟩
  | 73 => ⟨S1700000x1, .i32⟩
  | 74 => ⟨S1700000x64, .f32⟩
  | 75 => ⟨S1700000x1, .f32⟩
  | 76 => ⟨S1700000x64, .f32⟩
  | 77 => ⟨S1700000x64, .f32⟩
  | 78 => ⟨S_, .f32⟩
  | 79 => ⟨S100000x64, .f32⟩
  | 80 => ⟨S1700000x1, .i32⟩
  | 81 => ⟨S100000x64, .f32⟩
  | 82 => ⟨S1x64, .f32⟩
  | 83 => ⟨S100000x64, .f32⟩
  | 84 => ⟨S100000x64, .f32⟩
  | 85 => ⟨S100000x128, .f32⟩
  | 86 => ⟨S1x128x128, .f32⟩
  | 87 => ⟨S128x128, .f32⟩
  | 88 => ⟨S100000x128, .f32⟩
  | 89 => ⟨S1x128, .f32⟩
  | 90 => ⟨S128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S1x128x128, .f32⟩
  | 98 => ⟨S128x128, .f32⟩
  | 99 => ⟨S100000x128, .f32⟩
  | 100 => ⟨S1x128, .f32⟩
  | 101 => ⟨S128, .f32⟩
  | 102 => ⟨S1x128, .f32⟩
  | 103 => ⟨S100000x128, .f32⟩
  | 104 => ⟨S100000x128, .f32⟩
  | 105 => ⟨S_, .f32⟩
  | 106 => ⟨S100000x128, .f32⟩
  | 107 => ⟨S100000x128, .f32⟩
  | 108 => ⟨S1x128x128, .f32⟩
  | 109 => ⟨S128x128, .f32⟩
  | 110 => ⟨S100000x128, .f32⟩
  | 111 => ⟨S1x128, .f32⟩
  | 112 => ⟨S128, .f32⟩
  | 113 => ⟨S1x128, .f32⟩
  | 114 => ⟨S100000x128, .f32⟩
  | 115 => ⟨S100000x128, .f32⟩
  | 116 => ⟨S_, .f32⟩
  | 117 => ⟨S100000x128, .f32⟩
  | 118 => ⟨S100000x128, .f32⟩
  | 119 => ⟨S1x128x128, .f32⟩
  | 120 => ⟨S128x128, .f32⟩
  | 121 => ⟨S100000x128, .f32⟩
  | 122 => ⟨S1x128, .f32⟩
  | 123 => ⟨S128, .f32⟩
  | 124 => ⟨S1x128, .f32⟩
  | 125 => ⟨S100000x128, .f32⟩
  | 126 => ⟨S100000x128, .f32⟩
  | 127 => ⟨S_, .f32⟩
  | _ => ⟨S100000x128, .f32⟩

abbrev hbmTy0_1 (i : Nat) : BufTy := match i % 128 with
  | 0 => ⟨S100000x128, .f32⟩
  | 1 => ⟨S100000x128, .f32⟩
  | 2 => ⟨S100000x1, .f32⟩
  | 3 => ⟨S1x1, .f32⟩
  | 4 => ⟨S100000x1, .f32⟩
  | 5 => ⟨S100000x1, .f32⟩
  | 6 => ⟨S100000, .f32⟩
  | 7 => ⟨S100000x1, .f32⟩
  | 8 => ⟨S1x1, .f32⟩
  | 9 => ⟨S100000x1, .f32⟩
  | 10 => ⟨S100000x1, .f32⟩
  | 11 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_cst : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_cst_0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_1 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_call1_v0 : Ref sig .tc := ⟨.hbm, 44, rfl⟩
abbrev main_call1_v1 : Ref sig .tc := ⟨.hbm, 45, rfl⟩
abbrev main_v23 : Ref sig .tc := ⟨.hbm, 46, rfl⟩
abbrev main_c : Ref sig .tc := ⟨.hbm, 47, rfl⟩
abbrev main_v24 : Ref sig .tc := ⟨.hbm, 48, rfl⟩
abbrev main_v25 : Ref sig .tc := ⟨.hbm, 49, rfl⟩
abbrev main_c_3 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_4 : Ref sig .tc := ⟨.hbm, 56, rfl⟩
abbrev main_v31 : Ref sig .tc := ⟨.hbm, 57, rfl⟩
abbrev main_v32 : Ref sig .tc := ⟨.hbm, 58, rfl⟩
abbrev main_c_5 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c_6 : Ref sig .tc := ⟨.hbm, 66, rfl⟩
abbrev main_v39 : Ref sig .tc := ⟨.hbm, 67, rfl⟩
abbrev main_v40 : Ref sig .tc := ⟨.hbm, 68, rfl⟩
abbrev main_c_7 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_8 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_call2_cst : Ref sig .tc := ⟨.hbm, 94, rfl⟩
abbrev main_call2_v0 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_call3_cst : Ref sig .tc := ⟨.hbm, 105, rfl⟩
abbrev main_call3_v0 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_call4_cst : Ref sig .tc := ⟨.hbm, 116, rfl⟩
abbrev main_call4_v0 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call5_cst : Ref sig .tc := ⟨.hbm, 127, rfl⟩
abbrev main_call5_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  concatenates_S100000x64_S100000x64_S100000x128_d1 : Shape.Concatenates [S100000x64, S100000x64] S100000x128 1
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S2x128x128_S1x128x128_1_0_0 : S2x128x128.Slices ![1, 0, 0] S1x128x128
  slices_S2x128_S1x128_1_0 : S2x128.Slices ![1, 0] S1x128
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.LibPlainDot.lean ====
/-
  A product of an [M, K] array with a [K, N] array that contracts the left operand's axis 1 against the right
  operand's axis 0 (no batch axis), read at the entry (p, q): the sum over k of left (p, k) times right (k, q).
  Stated once for every dimension record of that kind, so that the kernel's matrix unit into a zero accumulator
  and the host's dot product are both read by instantiating it. With it, the transpose of an [a, b] array read at
  (p, q): the array at (q, p).
-/
import Idealize.ShloMosaic.Lib.ValueIdx
import Idealize.ShloMosaic.Lib.Pipeline.Value
import Idealize.ShloMosaic.PureOps.Ideal.Laws

noncomputable section

open scoped BigOperators

namespace Idealize.ShloMosaic.PlainDot

open Idealize.ShloMosaic Idealize.ShloMosaic.ValueIdx

variable {M K N : Nat} (D : DotDims ⟨2, ![M, K]⟩ ⟨2, ![K, N]⟩ ⟨2, ![M, N]⟩)

/-- The dimension numbers of a plain matrix product: rows of the left operand against columns of the right one. -/
structure IsPlain : Prop where
  lc : D.lhsContracting = [1]
  rc : D.rhsContracting = [0]
  ln : D.lhsNonContracting = [0]
  rn : D.rhsNonContracting = [1]
  lb : D.lhsBatch = []
  rb : D.rhsBatch = []

variable {D}

/-- The contraction runs over one axis … -/
theorem contr_rank (h : IsPlain D) : D.contr.rank = 1 := by
  rw [D.rank_contr, h.lc]; rfl

/-- … whose extent is the shared dimension K. -/
theorem contr_size (h : IsPlain D) : D.contr.size ⟨0, by have := contr_rank h; omega⟩ = K := by
  have h0 : 0 < D.lhsContracting.length := by rw [h.lc]; exact Nat.one_pos
  rw [D.size_contr 0 h0]
  simp [h.lc]

/-- The left operand's row is the result's row. -/
theorem lhs_row (h : IsPlain D) (j : (⟨2, ![M, N]⟩ : Shape).Idx) (q : D.contr.Idx) :
    (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb e => by subst e; rfl
  exact key _ _ _ _ (by simp [h.lb, h.ln])

/-- The left operand's column is the contraction coordinate. -/
theorem lhs_col (h : IsPlain D) (j : (⟨2, ![M, N]⟩ : Shape).Idx) (q : D.contr.Idx) :
    (D.lhsIdx j q 1).val = (q ⟨0, by have := contr_rank h; omega⟩).val :=
  D.lhsIdx_val_of_single h.lc j q

/-- The right operand's row is the contraction coordinate. -/
theorem rhs_row (h : IsPlain D) (j : (⟨2, ![M, N]⟩ : Shape).Idx) (q : D.contr.Idx) :
    (D.rhsIdx j q 0).val = (q ⟨0, by have := contr_rank h; omega⟩).val :=
  D.rhsIdx_val_of_single h.rc j q

/-- The right operand's column is the result's column. -/
theorem rhs_col (h : IsPlain D) (j : (⟨2, ![M, N]⟩ : Shape).Idx) (q : D.contr.Idx) :
    (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb e => by subst e; rfl
  exact key _ _ _ _ (by simp [h.lb, h.ln, h.rn])

/-- The contraction's sum, re-indexed by the shared coordinate k. -/
theorem sum_contr {α : Type*} [AddCommMonoid α] [Mul α] (h : IsPlain D)
    (l : (⟨2, ![M, K]⟩ : Shape).Idx → α) (r : (⟨2, ![K, N]⟩ : Shape).Idx → α) (p : Fin M) (q : Fin N) :
    ∑ k : D.contr.Idx, l (D.lhsIdx (ix2 p q) k) * r (D.rhsIdx (ix2 p q) k) = ∑ k : Fin K, l (ix2 p k) * r (ix2 k q) := by
  rw [← Equiv.sum_comp (contrEquiv1 D K (contr_rank h) (contr_size h)).symm]
  refine Finset.sum_congr rfl fun k _ => ?_
  have hk := contrEquiv1_symm_val D K (contr_rank h) (contr_size h) k
  have el : D.lhsIdx (ix2 p q) ((contrEquiv1 D K (contr_rank h) (contr_size h)).symm k) = ix2 p k :=
    funext fun a => Fin.ext (by
      match a with
      | ⟨0, _⟩ => exact lhs_row h _ _
      | ⟨1, _⟩ => exact (lhs_col h _ _).trans hk)
  have er : D.rhsIdx (ix2 p q) ((contrEquiv1 D K (contr_rank h) (contr_size h)).symm k) = ix2 k q :=
    funext fun a => Fin.ext (by
      match a with
      | ⟨0, _⟩ => exact (rhs_row h _ _).trans hk
      | ⟨1, _⟩ => exact rhs_col h _ _)
  rw [el, er]

/-- The matrix unit into the zero accumulator, on the extended reals, at (p, q). -/
theorem matmul_zero_apply {φ₁ φ₂ : FTy} (h : IsPlain D) (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q) = ∑ k : Fin K, l (ix2 p k) * r (ix2 k q) :=
  (Ideal.matmul_constant_zero_apply D prec l r (ix2 p q)).trans (sum_contr h l r p q)

/-- The host's dot product, on the extended reals, at (p, q). -/
theorem dotGeneral_apply {φ₁ φ₂ : FTy} (h : IsPlain D) (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) :=
  (Ideal.dotGeneral_apply D prec sched l r (ix2 p q)).trans (sum_contr h l r p q)

/-- The transpose of an [a, b] array at (p, q) is the array at (q, p). -/
theorem transpose_apply2 {α : Type} {a b : Nat} (x : (⟨2, ![a, b]⟩ : Shape).Idx → α)
    (h : (⟨2, ![a, b]⟩ : Shape).Transposes [1, 0] ⟨2, ![b, a]⟩) (p : Fin b) (q : Fin a) :
    transpose ⟨2, ![b, a]⟩ [1, 0] x h (ix2 p q) = x (ix2 q p) :=
  transpose_apply [1, 0] x h (ix2 p q) (ix2 q p) (fun c => match c with
    | ⟨0, _⟩ => rfl
    | ⟨1, _⟩ => rfl)

end Idealize.ShloMosaic.PlainDot

end
-- ==== Proof.LibRowWise.lean ====
/-
  An [R, C] array of extended reals described ROW BY ROW. `Rows V f` says that the array `V` holds `f p q` at row `p`,
  column `q`. A network that treats the rows of a batch independently of one another (products with fixed weight
  matrices, a bias row added to every row, pointwise nonlinearities) keeps such a description through each of its
  operations whatever the number of rows is, so that a block of rows and the whole batch are read by the same lemmas:

  * pointwise: sum, difference, product, maximum, tanh, the logistic function (as one operation, and spelt
    1 / (1 + exp (-x)) with the float word of 1.0), a change of float format (the identity on extended reals);
  * a product with a [K, C] matrix on the right, by the matrix unit into a zero accumulator and by the host's dot
    product: row p of the result is row p of the left operand times the matrix;
  * matrix number o of a stack [n, K, C], cut out and viewed as [K, C];
  * row number o of a stack [n, 1, C], cut out, viewed as a [1, C] row and repeated down R rows (both spellings of
    the repetition);
  * a scalar repeated over the whole array (both spellings).
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«179344_j58909771432452_1_alg».proof.Proof.LibPlainDot

noncomputable section

open scoped BigOperators

namespace Idealize.ShloMosaic.RowWise

open Idealize.ShloMosaic Idealize.ShloMosaic.ValueIdx

/-- The array `V` holds `f p q` at row `p`, column `q`. -/
def Rows {R C : ℕ} (V : (⟨2, ![R, C]⟩ : Shape).Idx → EReal) (f : Fin R → Fin C → EReal) : Prop :=
  ∀ (p : Fin R) (q : Fin C), V (ix2 p q) = f p q

variable {R C : ℕ} {φ : FTy}

/-- Every array is described by its own entries. -/
theorem rows_self (V : (⟨2, ![R, C]⟩ : Shape).Idx → EReal) : Rows V fun p q => V (ix2 p q) := fun _ _ => rfl

/-- A description may be replaced by an equal one. -/
theorem Rows.congr {V : (⟨2, ![R, C]⟩ : Shape).Idx → EReal} {f g : Fin R → Fin C → EReal} (h : Rows V f)
    (e : ∀ p q, f p q = g p q) : Rows V g := fun p q => (h p q).trans (e p q)

/-- Two arrays with one description are equal. -/
theorem Rows.ext {V W : (⟨2, ![R, C]⟩ : Shape).Idx → EReal} {f : Fin R → Fin C → EReal} (hV : Rows V f) (hW : Rows W f) :
    V = W := funext fun j => by
  obtain ⟨p, q, rfl⟩ : ∃ (p : Fin R) (q : Fin C), j = ix2 p q := ⟨j 0, j 1, eq_ix2 j⟩
  exact (hV p q).trans (hW p q).symm

/-! ## Pointwise operations -/

theorem rows_addf {a b : FVec Ideal ⟨2, ![R, C]⟩ φ} {f g : Fin R → Fin C → EReal} (ha : Rows a f) (hb : Rows b g) :
    Rows (addf a b) fun p q => f p q + g p q := fun p q =>
  (addf_apply a b (ix2 p q)).trans (by rw [ha p q, hb p q])

theorem rows_subf {a b : FVec Ideal ⟨2, ![R, C]⟩ φ} {f g : Fin R → Fin C → EReal} (ha : Rows a f) (hb : Rows b g) :
    Rows (subf a b) fun p q => f p q - g p q := fun p q =>
  (subf_apply a b (ix2 p q)).trans (by rw [ha p q, hb p q])

theorem rows_mulf {a b : FVec Ideal ⟨2, ![R, C]⟩ φ} {f g : Fin R → Fin C → EReal} (ha : Rows a f) (hb : Rows b g) :
    Rows (mulf a b) fun p q => f p q * g p q := fun p q =>
  (mulf_apply a b (ix2 p q)).trans (by rw [ha p q, hb p q])

theorem rows_maximumf {a b : FVec Ideal ⟨2, ![R, C]⟩ φ} {f g : Fin R → Fin C → EReal} (ha : Rows a f) (hb : Rows b g) :
    Rows (maximumf a b) fun p q => max (f p q) (g p q) := fun p q =>
  (maximumf_apply a b (ix2 p q)).trans (by rw [ha p q, hb p q])

/-- A narrowing change of float format keeps every entry. -/
theorem rows_truncf {ψ : FTy} {a : FVec Ideal ⟨2, ![R, C]⟩ φ} {f : Fin R → Fin C → EReal} (h : ψ.bits < φ.bits)
    (ha : Rows a f) : Rows (truncf ψ a h : FVec Ideal ⟨2, ![R, C]⟩ ψ) f := fun p q =>
  (truncf_apply a h (ix2 p q)).trans (ha p q)

/-- The kernel's hyperbolic tangent. -/
theorem rows_tanh {a : FVec Ideal ⟨2, ![R, C]⟩ φ} {f : Fin R → Fin C → EReal} (ha : Rows a f) :
    Rows (tanh a) fun p q => Ideal.tanh (f p q) := fun p q =>
  (show tanh a (ix2 p q) = Ideal.tanh (a (ix2 p q)) from rfl).trans (by rw [ha p q])

/-- The host's hyperbolic tangent is the same function. -/
theorem rows_hostTanh {a : FVec Ideal ⟨2, ![R, C]⟩ φ} {f : Fin R → Fin C → EReal} (ha : Rows a f) :
    Rows (Host.tanh a) fun p q => Ideal.tanh (f p q) := fun p q =>
  (show Host.tanh a (ix2 p q) = Ideal.tanh (a (ix2 p q)) from rfl).trans (by rw [ha p q])

/-- The logistic function as one operation. -/
theorem rows_logistic {a : FVec Ideal ⟨2, ![R, C]⟩ φ} {f : Fin R → Fin C → EReal} (ha : Rows a f) :
    Rows (logistic a) fun p q => Ideal.logistic (f p q) := fun p q =>
  (show logistic a (ix2 p q) = Ideal.logistic (a (ix2 p q)) from rfl).trans (by rw [ha p q])

/-- The logistic function spelt out on the host, 1 / (1 + exp (-x)), with both ones the float word of 1.0: on the
    extended reals this IS the logistic function, at the infinities too. -/
theorem rows_hostLogistic {a u v : FVec Ideal ⟨2, ![R, C]⟩ .f32} {f : Fin R → Fin C → EReal} (ha : Rows a f)
    (hu : Rows u fun _ _ => Ideal.ofBits .f32 0x3F800000#32) (hv : Rows v fun _ _ => Ideal.ofBits .f32 0x3F800000#32) :
    Rows (Host.divf u (addf v (Host.exp (Host.negf a)))) fun p q => Ideal.logistic (f p q) := fun p q => by
  show FloatOps.hostDivf (u (ix2 p q)) (FloatOps.addf (v (ix2 p q)) (FloatOps.hostUnary .exp (FloatOps.hostNegf (a (ix2 p q))))) = _
  rw [hu p q, hv p q, ha p q, Ideal.ofBits_one_f32]
  rfl

/-! ## Products with a matrix on the right -/

/-- The matrix unit into a zero accumulator: row p of the result is row p of the left operand times the matrix. -/
theorem rows_matmul {K : ℕ} {φ₁ φ₂ : FTy} {D : DotDims ⟨2, ![R, K]⟩ ⟨2, ![K, C]⟩ ⟨2, ![R, C]⟩} (hD : PlainDot.IsPlain D)
    (prec : Option ContractPrecision) {l : FVec Ideal ⟨2, ![R, K]⟩ φ₁} {r : FVec Ideal ⟨2, ![K, C]⟩ φ₂}
    {f : Fin R → Fin K → EReal} {w : Fin K → Fin C → EReal} (hl : Rows l f) (hr : Rows r w) :
    Rows (matmul D prec l r (constant ⟨2, ![R, C]⟩ .f32 0x00000000#32)) fun p q => ∑ k : Fin K, f p k * w k q := fun p q =>
  (PlainDot.matmul_zero_apply hD prec l r p q).trans (Finset.sum_congr rfl fun k _ => by rw [hl p k, hr k q])

/-- The host's dot product: the same sum. -/
theorem rows_dotGeneral {K : ℕ} {φ₁ φ₂ : FTy} {D : DotDims ⟨2, ![R, K]⟩ ⟨2, ![K, C]⟩ ⟨2, ![R, C]⟩} (hD : PlainDot.IsPlain D)
    (prec : Option ContractPrecision) {l : FVec Ideal ⟨2, ![R, K]⟩ φ₁} {r : FVec Ideal ⟨2, ![K, C]⟩ φ₂}
    {f : Fin R → Fin K → EReal} {w : Fin K → Fin C → EReal} (hl : Rows l f) (hr : Rows r w) :
    Rows (Host.dotGeneral D prec l r) fun p q => ∑ k : Fin K, f p k * w k q := fun p q =>
  (PlainDot.dotGeneral_apply hD prec .single l r p q).trans (Finset.sum_congr rfl fun k _ => by rw [hl p k, hr k q])

/-! ## Pieces of stacked parameters -/

/-- Matrix number `o` of a stack of `n` matrices, cut out as a [1, K, C] block and viewed as [K, C]. -/
theorem rows_stackedMatrix {n K : ℕ} (W : (⟨3, ![n, K, C]⟩ : Shape).Idx → EReal) (o : Fin n)
    (hs : (⟨3, ![n, K, C]⟩ : Shape).Slices ![o.val, 0, 0] ⟨3, ![1, K, C]⟩)
    (hc : (⟨3, ![1, K, C]⟩ : Shape).ShapeCasts ⟨2, ![K, C]⟩) :
    Rows (shapeCast ⟨2, ![K, C]⟩ (extractStridedSlice ⟨3, ![1, K, C]⟩ ![o.val, 0, 0] W hs) hc) fun k q => W (ix3 o k q) :=
  fun k q => (shapeCast_1ab_ab_apply _ hc k q).trans
    (extractStridedSlice_apply _ W hs _ (ix3 o k q) fun a => match a with
      | ⟨0, _⟩ => rfl
      | ⟨1, _⟩ => (Nat.zero_add _).symm
      | ⟨2, _⟩ => (Nat.zero_add _).symm)

/-- A [1, 1, C] block viewed as a [1, C] row keeps its entries. -/
theorem shapeCast_11c_1c_apply {α : Type} (x : (⟨3, ![1, 1, C]⟩ : Shape).Idx → α)
    (h : (⟨3, ![1, 1, C]⟩ : Shape).ShapeCasts ⟨2, ![1, C]⟩) (p : Fin 1) (q : Fin C) :
    shapeCast ⟨2, ![1, C]⟩ x h (ix2 p q) = x (ix3 (0 : Fin 1) (0 : Fin 1) q) :=
  shapeCast_apply x h _ _ (by
    have hp : p.val = 0 := by omega
    rw [Shape.rowMajor_val_three, Shape.rowMajor_val_two]
    show (0 * 1 + 0) * C + q.val = p.val * C + q.val
    rw [hp])

/-- Row number `o` of a stack [n, 1, C] at column `q`, after it is cut out and viewed as a [1, C] row. -/
theorem stackedRow_apply {n : ℕ} (b : (⟨3, ![n, 1, C]⟩ : Shape).Idx → EReal) (o : Fin n)
    (hs : (⟨3, ![n, 1, C]⟩ : Shape).Slices ![o.val, 0, 0] ⟨3, ![1, 1, C]⟩)
    (hc : (⟨3, ![1, 1, C]⟩ : Shape).ShapeCasts ⟨2, ![1, C]⟩) (q : Fin C) :
    shapeCast ⟨2, ![1, C]⟩ (extractStridedSlice ⟨3, ![1, 1, C]⟩ ![o.val, 0, 0] b hs) hc (ix2 (0 : Fin 1) q)
      = b (ix3 o (0 : Fin 1) q) :=
  (shapeCast_11c_1c_apply _ hc 0 q).trans
    (extractStridedSlice_apply _ b hs _ (ix3 o (0 : Fin 1) q) fun a => match a with
      | ⟨0, _⟩ => rfl
      | ⟨1, _⟩ => rfl
      | ⟨2, _⟩ => (Nat.zero_add _).symm)

/-- That row repeated down `R` rows by the kernel's broadcast. -/
theorem rows_stackedRow {n : ℕ} (b : (⟨3, ![n, 1, C]⟩ : Shape).Idx → EReal) (o : Fin n)
    (hs : (⟨3, ![n, 1, C]⟩ : Shape).Slices ![o.val, 0, 0] ⟨3, ![1, 1, C]⟩)
    (hc : (⟨3, ![1, 1, C]⟩ : Shape).ShapeCasts ⟨2, ![1, C]⟩)
    (hb : (⟨2, ![1, C]⟩ : Shape).Broadcasts ⟨2, ![R, C]⟩) :
    Rows (broadcastTo ⟨2, ![R, C]⟩ (shapeCast ⟨2, ![1, C]⟩ (extractStridedSlice ⟨3, ![1, 1, C]⟩ ![o.val, 0, 0] b hs) hc) hb)
      fun _ q => b (ix3 o (0 : Fin 1) q) :=
  fun p q => (broadcastTo_1b_ab_apply _ hb p q).trans (stackedRow_apply b o hs hc q)

/-- A [1, C] row repeated down `R` rows by the host's broadcast along both axes. -/
theorem broadcastInDim_1c_rc_apply {α : Type} (v : (⟨2, ![1, C]⟩ : Shape).Idx → α)
    (h : (⟨2, ![1, C]⟩ : Shape).BroadcastsInDim ⟨2, ![R, C]⟩ ![0, 1]) (p : Fin R) (q : Fin C) :
    broadcastInDim ⟨2, ![R, C]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if C = 1 then 0 else q.val
    split
    · have := q.isLt; omega
    · rfl

/-- The stack's row repeated down `R` rows by the host's broadcast. -/
theorem rows_hostStackedRow {n : ℕ} (b : (⟨3, ![n, 1, C]⟩ : Shape).Idx → EReal) (o : Fin n)
    (hs : (⟨3, ![n, 1, C]⟩ : Shape).Slices ![o.val, 0, 0] ⟨3, ![1, 1, C]⟩)
    (hc : (⟨3, ![1, 1, C]⟩ : Shape).ShapeCasts ⟨2, ![1, C]⟩)
    (hb : (⟨2, ![1, C]⟩ : Shape).BroadcastsInDim ⟨2, ![R, C]⟩ ![0, 1]) :
    Rows (broadcastInDim ⟨2, ![R, C]⟩ ![0, 1] hb (shapeCast ⟨2, ![1, C]⟩ (extractStridedSlice ⟨3, ![1, 1, C]⟩ ![o.val, 0, 0] b hs) hc))
      fun _ q => b (ix3 o (0 : Fin 1) q) :=
  fun p q => (broadcastInDim_1c_rc_apply _ hb p q).trans (stackedRow_apply b o hs hc q)

/-! ## A scalar over the whole array -/

/-- The kernel's splat of a scalar. -/
theorem rows_broadcast (x : EReal) : Rows (broadcast ⟨2, ![R, C]⟩ x) fun _ _ => x := fun _ _ => rfl

/-- The host's broadcast of a rank-0 constant. -/
theorem rows_hostConstant (w : BitVec (FTy.bits φ)) (h : (⟨0, ![]⟩ : Shape).BroadcastsInDim ⟨2, ![R, C]⟩ ![]) :
    Rows (broadcastInDim ⟨2, ![R, C]⟩ ![] h (constant (F := Ideal) ⟨0, ![]⟩ φ w)) fun _ _ => Ideal.ofBits φ w :=
  fun p q => broadcastInDim_apply ![] h _ (ix2 p q) ix0 fun a => a.elim0

end Idealize.ShloMosaic.RowWise

end
-- ==== Proof.LibDenseLayer.lean ====
/-
  One dense layer with a rectifier in front, applied to every row of a batch on its own, read row by row.

  A layer takes a row h of K extended reals, a K-by-C weight matrix W and a bias row b, replaces every entry of h by
  its maximum with zero, and returns the row whose entry q is the sum over k of max (h k, 0) * W k q, plus b q
  (`layer`). The two theorems say that an [R, C] array computed from an [R, K] array in this way keeps a row-by-row
  description (`RowWise.Rows`), in the two spellings met:

  * `rows_kernel_layer` — a Pallas body: the rectified block narrowed to half width, the weight block (also half
    width, behind an identity shape cast) multiplied on the matrix unit from a zero accumulator, plus a [1, C] bias
    block (behind an identity shape cast) repeated down the rows;
  * `rows_host_layer` — jax on the host: the rectified array times the weight matrix by the dot product at full
    width, plus a [C] bias vector laid out as a [1, C] row and repeated down the rows.

  On extended reals both are the same layer, since a change of float format keeps every entry; so a network of such
  layers computed block of rows by block of rows equals the same network computed on the whole batch.
  Imports LibRowWise.lean, which imports LibPlainDot.lean: copy all three.
-/
import Idealize.ShloMosaic.Lib.ValueIdx
import Idealize.ShloMosaic.Lib.ValueLayout
import Idealize.ShloMosaic.Lib.Pipeline.Value
import Idealize.ShloMosaic.PureOps.Ideal.Laws
import proofs.«179344_j58909771432452_1_alg».proof.Proof.LibRowWise

noncomputable section

open scoped BigOperators

namespace Idealize.ShloMosaic.DenseLayer

open Idealize.ShloMosaic Idealize.ShloMosaic.ValueIdx Idealize.ShloMosaic.RowWise

/-- The float word of zero read as an extended real. -/
abbrev zero : EReal := Ideal.ofBits .f32 0x00000000#32

/-- The rectifier on a row: every entry replaced by its maximum with zero. -/
def relu {K : ℕ} (h : Fin K → EReal) : Fin K → EReal := fun k => max (h k) zero

/-- A dense layer on a row: the row times the weight matrix, plus the bias. -/
def dense {K C : ℕ} (h : Fin K → EReal) (W : Fin K → Fin C → EReal) (b : Fin C → EReal) : Fin C → EReal :=
  fun q => (∑ k : Fin K, h k * W k q) + b q

/-- One layer: the rectifier, then the dense layer. -/
def layer {K C : ℕ} (h : Fin K → EReal) (W : Fin K → Fin C → EReal) (b : Fin C → EReal) : Fin C → EReal :=
  dense (relu h) W b

/-- A length-C vector laid out by the host as a [1, C] row reads, at column q, the vector at q. -/
theorem broadcastInDim_c_1c_apply {α : Type} {C : ℕ} (b : (⟨1, ![C]⟩ : Shape).Idx → α)
    (h : (⟨1, ![C]⟩ : Shape).BroadcastsInDim ⟨2, ![1, C]⟩ ![1]) (p : Fin 1) (q : Fin C) :
    broadcastInDim ⟨2, ![1, C]⟩ ![1] h b (ix2 p q) = b (ix1 q) := by
  refine broadcastInDim_apply ![1] h b (ix2 p q) (ix1 q) fun ax => ?_
  match ax with
  | ⟨0, _⟩ =>
    show q.val = if C = 1 then 0 else q.val
    split
    · have := q.isLt; omega
    · rfl

/-- One layer as a kernel body spells it keeps a row-by-row description: the rectified rows narrowed to half width
    and multiplied by the weight block on the matrix unit from a zero accumulator, plus the [1, C] bias block
    repeated down the rows. -/
theorem rows_kernel_layer {R K C : ℕ} {D : DotDims ⟨2, ![R, K]⟩ ⟨2, ![K, C]⟩ ⟨2, ![R, C]⟩} (hD : PlainDot.IsPlain D)
    {h : FVec Ideal ⟨2, ![R, K]⟩ .f32} {f : Fin R → Fin K → EReal} (hh : Rows h f)
    (w : FVec Ideal ⟨2, ![K, C]⟩ .bf16) (hw : (⟨2, ![K, C]⟩ : Shape).ShapeCasts ⟨2, ![K, C]⟩)
    (b : FVec Ideal ⟨2, ![1, C]⟩ .f32) (hb : (⟨2, ![1, C]⟩ : Shape).ShapeCasts ⟨2, ![1, C]⟩)
    (hbb : (⟨2, ![1, C]⟩ : Shape).Broadcasts ⟨2, ![R, C]⟩) (hlt : FTy.bf16.bits < FTy.f32.bits) :
    Rows (addf (matmul D none (truncf .bf16 (maximumf h (broadcast ⟨2, ![R, K]⟩ (Scalar.ofBits .f32 0x00000000#32))) hlt)
        (shapeCast ⟨2, ![K, C]⟩ w hw) (constant ⟨2, ![R, C]⟩ .f32 0x00000000#32))
      (broadcastTo ⟨2, ![R, C]⟩ (shapeCast ⟨2, ![1, C]⟩ b hb) hbb))
      fun p => layer (f p) (fun k q => w (ix2 k q)) (fun q => b (ix2 (0 : Fin 1) q)) := by
  rw [shapeCast_self, shapeCast_self]
  exact rows_addf (rows_matmul hD none (rows_truncf hlt (rows_maximumf hh (rows_broadcast _))) (rows_self w))
    (fun p q => broadcastTo_1b_ab_apply b hbb p q)

/-- The same layer as the host spells it: the rectified rows times the weight matrix by the dot product, plus the
    bias vector laid out as a row and repeated down the rows. -/
theorem rows_host_layer {R K C : ℕ} {D : DotDims ⟨2, ![R, K]⟩ ⟨2, ![K, C]⟩ ⟨2, ![R, C]⟩} (hD : PlainDot.IsPlain D)
    {h : FVec Ideal ⟨2, ![R, K]⟩ .f32} {f : Fin R → Fin K → EReal} (hh : Rows h f)
    (W : FVec Ideal ⟨2, ![K, C]⟩ .f32) (b : FVec Ideal ⟨1, ![C]⟩ .f32)
    (hz : (⟨0, ![]⟩ : Shape).BroadcastsInDim ⟨2, ![R, K]⟩ ![])
    (h1 : (⟨1, ![C]⟩ : Shape).BroadcastsInDim ⟨2, ![1, C]⟩ ![1])
    (h2 : (⟨2, ![1, C]⟩ : Shape).BroadcastsInDim ⟨2, ![R, C]⟩ ![0, 1]) :
    Rows (addf (Host.dotGeneral D none
          (maximumf h (broadcastInDim ⟨2, ![R, K]⟩ ![] hz (constant (F := Ideal) ⟨0, ![]⟩ .f32 0x00000000#32))) W)
      (broadcastInDim ⟨2, ![R, C]⟩ ![0, 1] h2 (broadcastInDim ⟨2, ![1, C]⟩ ![1] h1 b)))
      fun p => layer (f p) (fun k q => W (ix2 k q)) (fun q => b (ix1 q)) :=
  rows_addf (rows_dotGeneral hD none (rows_maximumf hh (rows_hostConstant _ hz)) (rows_self W))
    (fun p q => (broadcastInDim_1c_rc_apply _ h2 p q).trans (broadcastInDim_c_1c_apply b h1 0 q))

end Idealize.ShloMosaic.DenseLayer

end
-- ==== Proof.LibRowPieces.lean ====
/-
  More pieces for describing an [R, C] array of extended reals row by row (`RowWise.Rows`), and the one law that
  joins "lay two arrays side by side, then multiply by one weight matrix" with "multiply each array by its own
  columns of the weight matrix, then add":

  * an identity shape cast; a transposed [a, b] matrix (entry (p, q) is the matrix at (q, p));
  * two arrays [R, a] and [R, b] laid side by side into [R, c], c = a + b: column l is the first array's column l
    when l < a and the second array's column l - a otherwise;
  * a window of b columns starting at column o, cut out of an [n, c] matrix;
  * a length-C vector viewed as a [1, C] row; a [1, C] bias row repeated down R rows, in the kernel's spelling
    (behind an identity shape cast) and in the host's (a [C] vector laid out as a row first);
  * `sum_split`: a sum over c = a + b terms is the sum of its first a terms plus the sum of its last b terms, in any
    commutative monoid (no finiteness is needed: only the order of the terms changes);
  * `sum_sideBySide`: the same for the rectified side-by-side row against a weight column, which is the shape the
    law takes for a dense layer fed by a concatenation.
-/
import Idealize.ShloMosaic.Lib.ValueIdx
import Idealize.ShloMosaic.Lib.ValueLayout
import Idealize.ShloMosaic.Lib.Pipeline.Value
import proofs.«179344_j58909771432452_1_alg».proof.Proof.LibRowWise
import proofs.«179344_j58909771432452_1_alg».proof.Proof.LibDenseLayer

noncomputable section

open scoped BigOperators

namespace Idealize.ShloMosaic.RowWise

open Idealize.ShloMosaic Idealize.ShloMosaic.ValueIdx

variable {R C : ℕ}

/-- An identity shape cast keeps the array. -/
theorem rows_shapeCast_self (V : (⟨2, ![R, C]⟩ : Shape).Idx → EReal) (h : (⟨2, ![R, C]⟩ : Shape).ShapeCasts ⟨2, ![R, C]⟩) :
    Rows (shapeCast ⟨2, ![R, C]⟩ V h) fun p q => V (ix2 p q) := by
  rw [shapeCast_self]; exact rows_self V

/-- The transpose of an [a, b] matrix holds, at (p, q), the matrix at (q, p). -/
theorem rows_transpose {a b : ℕ} (x : (⟨2, ![a, b]⟩ : Shape).Idx → EReal)
    (h : (⟨2, ![a, b]⟩ : Shape).Transposes [1, 0] ⟨2, ![b, a]⟩) :
    Rows (transpose ⟨2, ![b, a]⟩ [1, 0] x h) fun p q => x (ix2 q p) :=
  fun p q => PlainDot.transpose_apply2 x h p q

/-! ## Two arrays side by side -/

/-- Column `l` of the side-by-side row built from a row `f` of `a` entries and a row `g` of `b` entries. -/
def sideBySide {a b c : ℕ} (hc : c = a + b) (f : Fin a → EReal) (g : Fin b → EReal) : Fin c → EReal :=
  fun l => if hl : l.val < a then f ⟨l.val, hl⟩ else g ⟨l.val - a, by have := l.isLt; omega⟩

/-- Two arrays joined along the columns: the row-by-row description is the side-by-side row. -/
theorem rows_concat {a b c : ℕ} (hc : c = a + b) {x : (⟨2, ![R, a]⟩ : Shape).Idx → EReal}
    {y : (⟨2, ![R, b]⟩ : Shape).Idx → EReal} {f : Fin R → Fin a → EReal} {g : Fin R → Fin b → EReal}
    (hx : Rows x f) (hy : Rows y g)
    (h : Shape.Concatenates [(⟨2, ![R, a]⟩ : Shape), ⟨2, ![R, b]⟩] ⟨2, ![R, c]⟩ 1) :
    Rows (concatenate ⟨2, ![R, c]⟩ 1 [⟨⟨2, ![R, a]⟩, x⟩, ⟨⟨2, ![R, b]⟩, y⟩] h) fun p => sideBySide hc (f p) (g p) := by
  intro p l
  dsimp only [sideBySide]
  by_cases hl : l.val < a
  · rw [dif_pos hl, ← hx p ⟨l.val, hl⟩]
    exact concatenate_pair_apply_left 1 x y h (ix2 p l) rfl (ix2 p ⟨l.val, hl⟩)
      (fun bb => match bb with | ⟨0, _⟩ => rfl | ⟨1, _⟩ => rfl)
  · have hlb : l.val - a < b := by have := l.isLt; omega
    rw [dif_neg hl, ← hy p ⟨l.val - a, hlb⟩]
    refine concatenate_pair_apply_right 1 x y h (ix2 p l) rfl rfl (ix2 p ⟨l.val - a, hlb⟩) ?_ ?_
    · intro bb hb
      match bb, hb with
      | ⟨0, _⟩, _ => rfl
      | ⟨1, _⟩, hb => exact absurd rfl hb
    · show l.val - a + a = l.val
      omega

/-! ## Pieces of parameters -/

/-- A window of `b` columns starting at column `o`, cut out of an [n, c] matrix: entry (j, l) is the matrix at
    (j, o + l). -/
theorem slice_cols_apply {α : Type} {n c b : ℕ} (o : ℕ) (x : (⟨2, ![n, c]⟩ : Shape).Idx → α)
    (h : (⟨2, ![n, c]⟩ : Shape).Slices ![0, o] ⟨2, ![n, b]⟩) (j : Fin n) (l : Fin b) (hl : o + l.val < c) :
    extractStridedSlice ⟨2, ![n, b]⟩ ![0, o] x h (ix2 j l) = x (ix2 j ⟨o + l.val, hl⟩) :=
  extractStridedSlice_apply _ x h _ (ix2 j ⟨o + l.val, hl⟩) fun ax => match ax with
    | ⟨0, _⟩ => (Nat.zero_add _).symm
    | ⟨1, _⟩ => rfl

/-- A length-C vector viewed as a [1, C] row keeps its entries. -/
theorem shapeCast_c_1c_apply {α : Type} (v : (⟨1, ![C]⟩ : Shape).Idx → α)
    (h : (⟨1, ![C]⟩ : Shape).ShapeCasts ⟨2, ![1, C]⟩) (p : Fin 1) (q : Fin C) :
    shapeCast ⟨2, ![1, C]⟩ v h (ix2 p q) = v (ix1 q) :=
  shapeCast_apply v h _ _ (by
    have hp : p.val = 0 := by omega
    rw [Shape.rowMajor_val_two, Shape.rowMajor_val_one]
    show q.val = p.val * C + q.val
    rw [hp]; omega)

/-- The kernel's bias: a [1, C] block behind an identity shape cast, repeated down R rows. -/
theorem rows_kernelBias (b : (⟨2, ![1, C]⟩ : Shape).Idx → EReal) (hb : (⟨2, ![1, C]⟩ : Shape).ShapeCasts ⟨2, ![1, C]⟩)
    (hbb : (⟨2, ![1, C]⟩ : Shape).Broadcasts ⟨2, ![R, C]⟩) :
    Rows (broadcastTo ⟨2, ![R, C]⟩ (shapeCast ⟨2, ![1, C]⟩ b hb) hbb) fun _ q => b (ix2 (0 : Fin 1) q) := by
  rw [shapeCast_self]
  exact fun p q => broadcastTo_1b_ab_apply b hbb p q

/-- The host's bias: a [C] vector laid out as a [1, C] row and repeated down R rows. -/
theorem rows_hostBias (b : (⟨1, ![C]⟩ : Shape).Idx → EReal)
    (h1 : (⟨1, ![C]⟩ : Shape).BroadcastsInDim ⟨2, ![1, C]⟩ ![1])
    (h2 : (⟨2, ![1, C]⟩ : Shape).BroadcastsInDim ⟨2, ![R, C]⟩ ![0, 1]) :
    Rows (broadcastInDim ⟨2, ![R, C]⟩ ![0, 1] h2 (broadcastInDim ⟨2, ![1, C]⟩ ![1] h1 b)) fun _ q => b (ix1 q) :=
  fun p q => (broadcastInDim_1c_rc_apply _ h2 p q).trans (DenseLayer.broadcastInDim_c_1c_apply b h1 0 q)

/-! ## A sum over a + b terms -/

/-- A sum over c = a + b terms is the sum of the first a terms plus the sum of the last b terms. -/
theorem sum_split {M : Type*} [AddCommMonoid M] {a b c : ℕ} (hc : c = a + b) (F : Fin c → M) :
    ∑ l : Fin c, F l
      = (∑ l : Fin a, F ⟨l.val, by have := l.isLt; omega⟩) + ∑ l : Fin b, F ⟨a + l.val, by have := l.isLt; omega⟩ := by
  subst hc
  rw [Fin.sum_univ_add]
  rfl

/-- The side-by-side row, rectified against `z` and multiplied term by term with a weight column `w`, sums to the
    first row's rectified products with the first `a` weights plus the second row's with the last `b` weights. -/
theorem sum_sideBySide {a b c : ℕ} (hc : c = a + b) (f : Fin a → EReal) (g : Fin b → EReal) (z : EReal)
    (w : Fin c → EReal) :
    ∑ l : Fin c, max (sideBySide hc f g l) z * w l
      = (∑ l : Fin a, max (f l) z * w ⟨l.val, by have := l.isLt; omega⟩)
        + ∑ l : Fin b, max (g l) z * w ⟨a + l.val, by have := l.isLt; omega⟩ := by
  rw [sum_split hc]
  congr 1
  · refine Finset.sum_congr rfl fun l _ => ?_
    unfold sideBySide
    rw [dif_pos (show (⟨l.val, by have := l.isLt; omega⟩ : Fin c).val < a from l.isLt)]
  · refine Finset.sum_congr rfl fun l _ => ?_
    unfold sideBySide
    rw [dif_neg (show ¬ (⟨a + l.val, by have := l.isLt; omega⟩ : Fin c).val < a from by show ¬ a + l.val < a; omega)]
    have e : (⟨a + l.val - a, by have := l.isLt; omega⟩ : Fin b) = l := Fin.ext (Nat.add_sub_cancel_left a l.val)
    show max (g ⟨a + l.val - a, _⟩) z * _ = _
    rw [e]

end Idealize.ShloMosaic.RowWise

end
-- ==== Proof.Net.lean ====
/-
  The network, one row of the batch at a time, on extended reals.

  A node's feature row x (128 entries) is encoded as r = max (x · Wphi + bphi, 0) (64 entries). Scaled by the node's
  treatment t it is projected, g = (t · r) · Wgnn (64 entries); the message-passing step mixes the rows g of all nodes
  into one aggregate row a per node (a step both programs perform with the same operations, so it is never opened
  here). The head's input is r and a + bgnn laid side by side (128 entries); a hidden layer z ↦ max (z · W + b, 0)
  (128 entries) and a linear read-out h ↦ h · w + c (one entry) follow. The two heads differ only in their parameters.
-/
import Idealize.ShloMosaic.Lib.ValueIdx
import Idealize.ShloMosaic.PureOps.Ideal
import proofs.«179344_j58909771432452_1_alg».proof.Proof.LibRowPieces

noncomputable section

open scoped BigOperators

namespace Cert.Net

open Idealize.ShloMosaic Idealize.ShloMosaic.ValueIdx Idealize.ShloMosaic.RowWise

/-- The float word of zero read as an extended real. -/
abbrev zero : EReal := Ideal.ofBits .f32 0x00000000#32

/-- The encoder on a row: max (x · W + b, 0). -/
def encode (x : Fin 128 → EReal) (W : Fin 128 → Fin 64 → EReal) (b : Fin 64 → EReal) : Fin 64 → EReal :=
  fun q => max ((∑ k : Fin 128, x k * W k q) + b q) zero

/-- The projection of a treated row: (t · r) · W. -/
def project (t : EReal) (r : Fin 64 → EReal) (W : Fin 64 → Fin 64 → EReal) : Fin 64 → EReal :=
  fun q => ∑ k : Fin 64, (t * r k) * W k q

/-- The head's input: the encoded row and the aggregate row plus its bias, side by side. -/
def joined (r a bg : Fin 64 → EReal) : Fin 128 → EReal :=
  sideBySide (a := 64) (b := 64) (c := 128) rfl r (fun j => a j + bg j)

/-- A head's hidden layer on a row: max (z · W + b, 0). -/
def hidden (z : Fin 128 → EReal) (W : Fin 128 → Fin 128 → EReal) (b : Fin 128 → EReal) : Fin 128 → EReal :=
  fun q => max ((∑ k : Fin 128, z k * W k q) + b q) zero

/-- A head's read-out on a row: h · w + c, a row of one entry. -/
def readout (h : Fin 128 → EReal) (w : Fin 128 → Fin 1 → EReal) (c : Fin 1 → EReal) : Fin 1 → EReal :=
  fun q => (∑ k : Fin 128, h k * w k q) + c q

/-- A whole head on a row. -/
def head (r a bg : Fin 64 → EReal) (W : Fin 128 → Fin 128 → EReal) (b : Fin 128 → EReal)
    (w : Fin 128 → Fin 1 → EReal) (c : Fin 1 → EReal) : Fin 1 → EReal :=
  readout (hidden (joined r a bg) W b) w c

/-- An [R, C] array given by its rows. -/
def ofRows {R C : ℕ} (f : Fin R → Fin C → EReal) : (⟨2, ![R, C]⟩ : Shape).Idx → EReal :=
  fun i => f ⟨(i 0).val, (i 0).isLt⟩ ⟨(i 1).val, (i 1).isLt⟩

theorem rows_ofRows {R C : ℕ} (f : Fin R → Fin C → EReal) : Rows (ofRows f) f := fun _ _ => rfl

/-- An array described row by row IS the array given by those rows. -/
theorem eq_ofRows {R C : ℕ} {V : (⟨2, ![R, C]⟩ : Shape).Idx → EReal} {f : Fin R → Fin C → EReal} (h : Rows V f) :
    V = ofRows f := h.ext (rows_ofRows f)

/-- The batch is cut into 20 blocks of 5000 rows: row p of block t is row 5000 t + p of the batch. -/
def row (t : Fin 20) (p : Fin 5000) : Fin 100000 :=
  ⟨5000 * t.val + p.val, by have := t.isLt; have := p.isLt; omega⟩

/-- Every row of the batch lies in the block numbered by its quotient by 5000. -/
theorem blockOf_lt (P : ℕ) (h : P < 100000) : P / 5000 < 20 := by omega

end Cert.Net

end
-- ==== Proof.LibColBroadcast.lean ====
/- One column broadcast over many: the index fact a kept row reduction (`sum(axis=1, keepdims=True)`) meets when it is
   spread back over the columns of a matrix. -/
import Idealize.ShloMosaic.Lib.Pipeline.Value
import Idealize.ShloMosaic.Lib.ValueIdx

open Idealize.ShloMosaic Idealize.ShloMosaic.ValueIdx

namespace Idealize.ShloMosaic.ColBroadcast

/-- An `[a, 1]` column broadcast to `[a, b]` reads, at `(p, c)`, the column at row `p`, whatever the column index `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColBroadcast
-- ==== Proof.Region0.lean ====
/-
  The first kernel region (the encoder), at any contents V of the TensorCore's buffers when the region is entered:
  what its two output arrays hold when it ends, as whole-array functions of V.

  The grid has 20 points. Point t is handed rows 5000 t … 5000 t + 4999 of the feature array [100000, 128] and of the
  treatment column [100000, 1], and the whole of the three parameter arrays (the encoder's weights [128, 64], its bias
  row [1, 64], the projection's weights [64, 64]). Its body computes, for each of its 5000 rows, the encoded row
  max (x · Wphi + bphi, 0) and the projected row (t · encoded) · Wgnn, and point t writes them back as rows
  5000 t … 5000 t + 4999 of the two output arrays [100000, 64]. The blocks tile the arrays, so after the region each
  output array holds, at every row P of the batch, the row computed from row P of the inputs.
-/
import proofs.«179344_j58909771432452_1_alg».proof.Proof.Gen.KernelIdeal.Frame
import Idealize.ShloMosaic.Lib.Pipeline.Value
import Idealize.ShloMosaic.Lib.ValueIdx
import proofs.«179344_j58909771432452_1_alg».proof.Proof.Net
import proofs.«179344_j58909771432452_1_alg».proof.Proof.LibColBroadcast

set_option maxRecDepth 16384

noncomputable section

open scoped BigOperators

namespace Cert.KernelIdeal.Enc

open Cert.KernelIdeal Cert.KernelIdeal.Gen Idealize.ShloMosaic Idealize.ShloMosaic.TcCoe Idealize.ShloMosaic.ValueIdx
open Idealize.ShloMosaic.RowWise Idealize.SL.Sem Cert.Net

variable (V : (c : Dev nD) → (b : Ref sig .tc) → Buf (Elt Ideal) ((c : Thread nD τ).loc b))

theorem hz : (![0, 0] : Fin 2 → Nat) = fun _ => 0 := funext fun a => by fin_cases a <;> rfl

/-! ## The body's two stored values, row by row -/

theorem plain_enc : PlainDot.IsPlain dot_S5000x128_S128x64_S5000x64_1_0_0_1_n_n := ⟨rfl, rfl, rfl, rfl, rfl, rfl⟩
theorem plain_proj : PlainDot.IsPlain dot_S5000x64_S64x64_S5000x64_1_0_0_1_n_n := ⟨rfl, rfl, rfl, rfl, rfl, rfl⟩

/-- The first stored value: each row of the feature block encoded. -/
theorem rows_encoded (x0 : Vec Ideal S5000x128 .f32) (x2 : Vec Ideal S128x64 .f32) (x3 : Vec Ideal S1x64 .f32) :
    Rows (k0_pay1 (F := Ideal) x0 x2 x3)
      fun p => encode (fun k => x0 (ix2 p k)) (fun k q => x2 (ix2 k q)) (fun q => x3 (ix2 (0 : Fin 1) q)) := by
  unfold k0_pay1
  exact rows_maximumf (rows_addf (rows_matmul plain_enc none (rows_truncf _ (rows_self x0)) (rows_truncf _ (rows_self x2)))
    (rows_kernelBias x3 _ _)) (rows_broadcast _)

/-- The treatment column spread over the 64 columns: entry (p, q) is the treatment of row p. -/
theorem rows_treatment (x1 : Vec Ideal S5000x1 .f32) :
    Rows (broadcastTo S5000x64 (shapeCast S5000x1 x1 shapeCasts_S5000x1_S5000x1) broadcasts_S5000x1_S5000x64)
      fun p _ => x1 (ix2 p (0 : Fin 1)) := by
  rw [shapeCast_self]
  exact fun p q => ColBroadcast.broadcastTo_a1_ab_apply x1 _ p q

/-- The second stored value: each encoded row, scaled by its treatment, projected. -/
theorem rows_projected (x0 : Vec Ideal S5000x128 .f32) (x2 : Vec Ideal S128x64 .f32) (x3 : Vec Ideal S1x64 .f32)
    (x1 : Vec Ideal S5000x1 .f32) (x4 : Vec Ideal S64x64 .f32) :
    Rows (k0_pay2 (F := Ideal) x0 x2 x3 x1 x4)
      fun p => project (x1 (ix2 p (0 : Fin 1)))
        (encode (fun k => x0 (ix2 p k)) (fun k q => x2 (ix2 k q)) (fun q => x3 (ix2 (0 : Fin 1) q))) (fun k q => x4 (ix2 k q)) := by
  unfold k0_pay2
  exact rows_matmul plain_proj none (rows_truncf _ (rows_mulf (rows_treatment x1) (rows_encoded x0 x2 x3)))
    (rows_truncf _ (rows_self x4))

/-! ## The windows' blocks -/

/-- The printed index maps, decided over the 20 points: the three row-blocked windows (features, treatments, and the
    two outputs) sit at block (t, 0), the three parameter windows at block (0, 0). -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Point t's feature block: row p is row 5000 t + p of the feature array. -/
theorem read0_0 (c : Dev nD) (t : Fin cfg0.N) (p : Fin 5000) (k : Fin 128) :
    (iblk0 V c 0 t : Vec Ideal S5000x128 .f32) (ix2 p k) = V c main_arg0 (ix2 (row t p) k) := by
  unfold iblk0
  show V c main_arg0 (((cfg0.win 0).blk t).view.emb (ix2 p k)) = _
  refine congrArg (V c main_arg0) ?_
  obtain ⟨e0, e1, -⟩ := idx0 t
  funext a; apply Fin.ext
  match a with
  | ⟨0, _⟩ => show win0_0.index t (0 : Fin 2) * 5000 + 1 * p.val = 5000 * t.val + p.val; omega
  | ⟨1, _⟩ => show win0_0.index t (1 : Fin 2) * 128 + 1 * k.val = k.val; omega

/-- Point t's treatment block: row p is row 5000 t + p of the treatment column. -/
theorem read0_1 (c : Dev nD) (t : Fin cfg0.N) (p : Fin 5000) :
    (iblk0 V c 1 t : Vec Ideal S5000x1 .f32) (ix2 p (0 : Fin 1)) = V c main_v0 (ix2 (row t p) (0 : Fin 1)) := by
  unfold iblk0
  show V c main_v0 (((cfg0.win 1).blk t).view.emb (ix2 p (0 : Fin 1))) = _
  refine congrArg (V c main_v0) ?_
  obtain ⟨-, -, e0, e1, -⟩ := idx0 t
  funext a; apply Fin.ext
  match a with
  | ⟨0, _⟩ => show win0_1.index t (0 : Fin 2) * 5000 + 1 * p.val = 5000 * t.val + p.val; omega
  | ⟨1, _⟩ => show win0_1.index t (1 : Fin 2) * 1 + 1 * 0 = 0; omega

/-- Every point's encoder-weight block is the whole weight array. -/
theorem read0_2 (c : Dev nD) (t : Fin cfg0.N) (k : Fin 128) (q : Fin 64) :
    (iblk0 V c 2 t : Vec Ideal S128x64 .f32) (ix2 k q) = V c main_arg3 (ix2 k q) := by
  unfold iblk0
  show V c main_arg3 (((cfg0.win 2).blk t).view.emb (ix2 k q)) = _
  refine congrArg (V c main_arg3) ?_
  obtain ⟨-, -, -, -, e0, e1, -⟩ := idx0 t
  funext a; apply Fin.ext
  match a with
  | ⟨0, _⟩ => show win0_2.index t (0 : Fin 2) * 128 + 1 * k.val = k.val; omega
  | ⟨1, _⟩ => show win0_2.index t (1 : Fin 2) * 64 + 1 * q.val = q.val; omega

/-- Every point's encoder-bias block is the whole bias row. -/
theorem read0_3 (c : Dev nD) (t : Fin cfg0.N) (q : Fin 64) :
    (iblk0 V c 3 t : Vec Ideal S1x64 .f32) (ix2 (0 : Fin 1) q) = V c main_v1 (ix2 (0 : Fin 1) q) := by
  unfold iblk0
  show V c main_v1 (((cfg0.win 3).blk t).view.emb (ix2 (0 : Fin 1) q)) = _
  refine congrArg (V c main_v1) ?_
  obtain ⟨-, -, -, -, -, -, e0, e1, -⟩ := idx0 t
  funext a; apply Fin.ext
  match a with
  | ⟨0, _⟩ => show win0_3.index t (0 : Fin 2) * 1 + 1 * 0 = 0; omega
  | ⟨1, _⟩ => show win0_3.index t (1 : Fin 2) * 64 + 1 * q.val = q.val; omega

/-- Every point's projection-weight block is the whole weight array. -/
theorem read0_4 (c : Dev nD) (t : Fin cfg0.N) (k : Fin 64) (q : Fin 64) :
    (iblk0 V c 4 t : Vec Ideal S64x64 .f32) (ix2 k q) = V c main_arg5 (ix2 k q) := by
  unfold iblk0
  show V c main_arg5 (((cfg0.win 4).blk t).view.emb (ix2 k q)) = _
  refine congrArg (V c main_arg5) ?_
  obtain ⟨-, -, -, -, -, -, -, -, e0, e1, -⟩ := idx0 t
  funext a; apply Fin.ext
  match a with
  | ⟨0, _⟩ => show win0_4.index t (0 : Fin 2) * 64 + 1 * k.val = k.val; omega
  | ⟨1, _⟩ => show win0_4.index t (1 : Fin 2) * 64 + 1 * q.val = q.val; omega

/-- Where point t's block of the first output array puts its entry (p, q): at row 5000 t + p. -/
theorem emb0_5 (t : Fin cfg0.N) (p : Fin 5000) (q : Fin 64) :
    ((cfg0.win 5).blk t).view.emb (ix2 p q) = ix2 (row t p) q := by
  obtain ⟨-, -, -, -, -, -, -, -, -, -, e0, e1, -⟩ := idx0 t
  funext a; apply Fin.ext
  match a with
  | ⟨0, _⟩ => show win0_5.index t (0 : Fin 2) * 5000 + 1 * p.val = 5000 * t.val + p.val; omega
  | ⟨1, _⟩ => show win0_5.index t (1 : Fin 2) * 64 + 1 * q.val = q.val; omega

/-- The same for the second output array. -/
theorem emb0_6 (t : Fin cfg0.N) (p : Fin 5000) (q : Fin 64) :
    ((cfg0.win 6).blk t).view.emb (ix2 p q) = ix2 (row t p) q := by
  obtain ⟨-, -, -, -, -, -, -, -, -, -, -, -, e0, e1⟩ := idx0 t
  funext a; apply Fin.ext
  match a with
  | ⟨0, _⟩ => show win0_6.index t (0 : Fin 2) * 5000 + 1 * p.val = 5000 * t.val + p.val; omega
  | ⟨1, _⟩ => show win0_6.index t (1 : Fin 2) * 64 + 1 * q.val = q.val; omega

/-! ## The two output arrays as whole-array functions -/

/-- The encoded rows of the whole batch, from the region's entry contents. -/
def encodedRows (c : Dev nD) : Fin 100000 → Fin 64 → EReal := fun P =>
  encode (fun k => V c main_arg0 (ix2 P k)) (fun k q => V c main_arg3 (ix2 k q)) (fun q => V c main_v1 (ix2 (0 : Fin 1) q))

/-- The projected rows of the whole batch. -/
def projectedRows (c : Dev nD) : Fin 100000 → Fin 64 → EReal := fun P =>
  project (V c main_v0 (ix2 P (0 : Fin 1))) (encodedRows V c P) (fun k q => V c main_arg5 (ix2 k q))

/-- What point t writes back to the first output array is its block of the encoded rows. -/
theorem flushed0_5 (c : Dev nD) (t : Fin cfg0.N) :
    (dat0 V c).flushed 5 t = ((cfg0.win 5).blk t).view.read (Elt Ideal) (ofRows (encodedRows V c)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x64) hz, View.ld_unit_zero (S := S1x64) hz]
  funext j
  obtain ⟨p, q, rfl⟩ : ∃ (p : Fin 5000) (q : Fin 64), j = ix2 p q := ⟨j 0, j 1, eq_ix2 j⟩
  show k0_pay1 (F := Ideal) (iblk0 V c 0 t) (iblk0 V c 2 t) (iblk0 V c 3 t) (ix2 p q)
    = ofRows (encodedRows V c) (((cfg0.win 5).blk t).view.emb (ix2 p q))
  rw [emb0_5, rows_ofRows, rows_encoded]
  unfold encodedRows
  simp only [read0_0, read0_2, read0_3]

/-- What point t writes back to the second output array is its block of the projected rows. -/
theorem flushed0_6 (c : Dev nD) (t : Fin cfg0.N) :
    (dat0 V c).flushed 6 t = ((cfg0.win 6).blk t).view.read (Elt Ideal) (ofRows (projectedRows V c)) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x64) hz, View.ld_unit_zero (S := S1x64) hz,
    View.ld_unit_zero (S := S5000x1) hz, View.ld_unit_zero (S := S64x64) hz]
  funext j
  obtain ⟨p, q, rfl⟩ : ∃ (p : Fin 5000) (q : Fin 64), j = ix2 p q := ⟨j 0, j 1, eq_ix2 j⟩
  show k0_pay2 (F := Ideal) (iblk0 V c 0 t) (iblk0 V c 2 t) (iblk0 V c 3 t) (iblk0 V c 1 t) (iblk0 V c 4 t) (ix2 p q)
    = ofRows (projectedRows V c) (((cfg0.win 6).blk t).view.emb (ix2 p q))
  rw [emb0_6, rows_ofRows, rows_projected]
  unfold projectedRows encodedRows
  simp only [read0_0, read0_1, read0_2, read0_3, read0_4]

/-- An index of the first output array is in point t's block iff each coordinate is in the block's range. -/
theorem mem_blk0_5 (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v2_0).slice (win0_5.rect t)).set ↔ _
  rw [View.set_slice_whole, Rect.mem_set_unit]
  exact Iff.rfl

theorem mem_blk0_6 (t : Fin cfg0.N) (i : S100000x64.Idx) :
    i ∈ ((cfg0.win 6).blk t).view.set ↔ ∀ a : Fin 2, win0_6.index t a * S5000x64.size a ≤ (i a).val
      ∧ (i a).val < win0_6.index t a * S5000x64.size a + S5000x64.size a := by
  show i ∈ ((View.whole main_v2_1).slice (win0_6.rect t)).set ↔ _
  rw [View.set_slice_whole, Rect.mem_set_unit]
  exact Iff.rfl

/-- The 20 blocks of 5000 rows cover the first output array: row P lies in block P / 5000. -/
theorem covered0_5 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  refine ⟨⟨(i 0).val / 5000, blockOf_lt _ hi0⟩, flush0_5 _, ?_⟩
  rw [mem_blk0_5]
  obtain ⟨-, -, -, -, -, -, -, -, -, -, e0, e1, -⟩ := idx0 ⟨(i 0).val / 5000, blockOf_lt _ hi0⟩
  intro a
  match a with
  | ⟨0, _⟩ =>
    show win0_5.index _ (0 : Fin 2) * 5000 ≤ (i 0).val ∧ (i 0).val < win0_5.index _ (0 : Fin 2) * 5000 + 5000
    rw [e0]; show (i 0).val / 5000 * 5000 ≤ (i 0).val ∧ (i 0).val < (i 0).val / 5000 * 5000 + 5000; omega
  | ⟨1, _⟩ =>
    show win0_5.index _ (1 : Fin 2) * 64 ≤ (i 1).val ∧ (i 1).val < win0_5.index _ (1 : Fin 2) * 64 + 64
    rw [e1]; omega

theorem covered0_6 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  refine ⟨⟨(i 0).val / 5000, blockOf_lt _ hi0⟩, flush0_6 _, ?_⟩
  rw [mem_blk0_6]
  obtain ⟨-, -, -, -, -, -, -, -, -, -, -, -, e0, e1⟩ := idx0 ⟨(i 0).val / 5000, blockOf_lt _ hi0⟩
  intro a
  match a with
  | ⟨0, _⟩ =>
    show win0_6.index _ (0 : Fin 2) * 5000 ≤ (i 0).val ∧ (i 0).val < win0_6.index _ (0 : Fin 2) * 5000 + 5000
    rw [e0]; show (i 0).val / 5000 * 5000 ≤ (i 0).val ∧ (i 0).val < (i 0).val / 5000 * 5000 + 5000; omega
  | ⟨1, _⟩ =>
    show win0_6.index _ (1 : Fin 2) * 64 ≤ (i 1).val ∧ (i 1).val < win0_6.index _ (1 : Fin 2) * 64 + 64
    rw [e1]; omega

/-- After the region the first output array holds the encoded rows of the whole batch. -/
theorem encoded_array (c : Dev nD) : (dat0 V c).arrAt 5 cfg0.N = ofRows (encodedRows V c) :=
  (dat0 V c).arrAt_eq_of_cover 5 (ofRows (encodedRows V c)) (fun t _ => flushed0_5 V c t) covered0_5

/-- After the region the second output array holds the projected rows of the whole batch. -/
theorem projected_array (c : Dev nD) : (dat0 V c).arrAt 6 cfg0.N = ofRows (projectedRows V c) :=
  (dat0 V c).arrAt_eq_of_cover 6 (ofRows (projectedRows V c)) (fun t _ => flushed0_6 V c t) covered0_6

end Cert.KernelIdeal.Enc

end
-- ==== Proof.Region1.lean ====
/-
  The second kernel region (the two heads), at any contents V of the TensorCore's buffers when the region is entered:
  what its two output columns hold when it ends, as whole-array functions of V.

  The grid has 20 points. Point t is handed rows 5000 t … 5000 t + 4999 of the encoded array and of the aggregate
  array (both [100000, 64]) and the whole of nine parameter arrays: the aggregate's bias row [1, 64] and, per head, a
  hidden layer's weights [128, 128] and bias row [1, 128] and a read-out's weights [128, 1] and bias [1, 1]. For each
  of its 5000 rows the body lays the encoded row and the aggregate row plus its bias side by side, applies each
  head's hidden layer and read-out, and point t writes the two results back as rows 5000 t … 5000 t + 4999 of the two
  output columns [100000, 1]. The blocks tile the columns.
-/
import proofs.«179344_j58909771432452_1_alg».proof.Proof.Gen.KernelIdeal.Frame
import Idealize.ShloMosaic.Lib.Pipeline.Value
import Idealize.ShloMosaic.Lib.ValueIdx
import proofs.«179344_j58909771432452_1_alg».proof.Proof.Net
import proofs.«179344_j58909771432452_1_alg».proof.Proof.LibColBroadcast

set_option maxRecDepth 16384

noncomputable section

open scoped BigOperators

namespace Cert.KernelIdeal.Heads

open Cert.KernelIdeal Cert.KernelIdeal.Gen Idealize.ShloMosaic Idealize.ShloMosaic.TcCoe Idealize.ShloMosaic.ValueIdx
open Idealize.ShloMosaic.RowWise Idealize.SL.Sem Cert.Net

variable (V : (c : Dev nD) → (b : Ref sig .tc) → Buf (Elt Ideal) ((c : Thread nD τ).loc b))

theorem hz : (![0, 0] : Fin 2 → Nat) = fun _ => 0 := funext fun a => by fin_cases a <;> rfl

/-! ## The body's stored values, row by row -/

theorem plain_hid : PlainDot.IsPlain dot_S5000x128_S128x128_S5000x128_1_0_0_1_n_n := ⟨rfl, rfl, rfl, rfl, rfl, rfl⟩
theorem plain_out : PlainDot.IsPlain dot_S5000x128_S128x1_S5000x1_1_0_0_1_n_n := ⟨rfl, rfl, rfl, rfl, rfl, rfl⟩

/-- The heads' common input: the encoded block and the aggregate block plus its bias row, side by side. -/
theorem rows_joined (v0 v2 : Vec Ideal S5000x64 .f32) (v4 : Vec Ideal S1x64 .f32) :
    Rows (k1_pay3 (F := Ideal) v0 v2 v4)
      fun p => joined (fun j => v0 (ix2 p j)) (fun j => v2 (ix2 p j)) (fun j => v4 (ix2 (0 : Fin 1) j)) := by
  unfold k1_pay3
  exact rows_truncf _ (rows_concat rfl (rows_shapeCast_self v0 _)
    (rows_addf (rows_shapeCast_self v2 _) (rows_kernelBias v4 _ _)) _)

/-- A head's hidden layer on the joined rows. -/
theorem rows_hidden (v0 v2 : Vec Ideal S5000x64 .f32) (v4 : Vec Ideal S1x64 .f32) (w : Vec Ideal S128x128 .f32)
    (b : Vec Ideal S1x128 .f32) :
    Rows (k1_pay4 (F := Ideal) v0 v2 v4 w b)
      fun p => hidden (joined (fun j => v0 (ix2 p j)) (fun j => v2 (ix2 p j)) (fun j => v4 (ix2 (0 : Fin 1) j)))
        (fun k q => w (ix2 k q)) (fun q => b (ix2 (0 : Fin 1) q)) := by
  unfold k1_pay4
  exact rows_maximumf (rows_addf (rows_matmul plain_hid none (rows_joined v0 v2 v4) (rows_truncf _ (rows_shapeCast_self w _)))
    (rows_kernelBias b _ _)) (rows_broadcast _)

/-- The first stored value: the first head, row by row. -/
theorem rows_head0 (v0 v2 : Vec Ideal S5000x64 .f32) (v4 : Vec Ideal S1x64 .f32) (w : Vec Ideal S128x128 .f32)
    (b : Vec Ideal S1x128 .f32) (u : Vec Ideal S128x1 .f32) (d : Vec Ideal S1x1 .f32) :
    Rows (k1_pay1 (F := Ideal) (k1_pay6 (F := Ideal) v0 v2 v4 w b u) d)
      fun p => head (fun j => v0 (ix2 p j)) (fun j => v2 (ix2 p j)) (fun j => v4 (ix2 (0 : Fin 1) j))
        (fun k q => w (ix2 k q)) (fun q => b (ix2 (0 : Fin 1) q)) (fun k q => u (ix2 k q)) (fun q => d (ix2 (0 : Fin 1) q)) := by
  unfold k1_pay1 k1_pay6
  exact rows_addf (rows_matmul plain_out none
      (rows_truncf _ (rows_maximumf (rows_addf (rows_matmul plain_hid none (rows_joined v0 v2 v4)
        (rows_truncf _ (rows_shapeCast_self w _))) (rows_kernelBias b _ _)) (rows_broadcast _)))
      (rows_truncf _ (rows_self u)))
    (rows_kernelBias d _ _)

/-- The second stored value: the second head, row by row. -/
theorem rows_head1 (v0 v2 : Vec Ideal S5000x64 .f32) (v4 : Vec Ideal S1x64 .f32) (w : Vec Ideal S128x128 .f32)
    (b : Vec Ideal S1x128 .f32) (u : Vec Ideal S128x1 .f32) (d : Vec Ideal S1x1 .f32) :
    Rows (k1_pay2 (F := Ideal) (k1_pay4 (F := Ideal) v0 v2 v4 w b) (k1_pay5 (F := Ideal) u) d)
      fun p => head (fun j => v0 (ix2 p j)) (fun j => v2 (ix2 p j)) (fun j => v4 (ix2 (0 : Fin 1) j))
        (fun k q => w (ix2 k q)) (fun q => b (ix2 (0 : Fin 1) q)) (fun k q => u (ix2 k q)) (fun q => d (ix2 (0 : Fin 1) q)) := by
  unfold k1_pay2 k1_pay5
  exact rows_addf (rows_matmul plain_out none (rows_truncf _ (rows_hidden v0 v2 v4 w b)) (rows_truncf _ (rows_self u)))
    (rows_kernelBias d _ _)

/-! ## The windows' blocks -/

/-- The printed index maps, decided over the 20 points: the encoded and aggregate windows and the two outputs sit at
    block (t, 0), the nine parameter windows at block (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = t.val ∧ win1_11.index t (1 : Fin 2) = 0
    ∧ win1_12.index t (0 : Fin 2) = t.val ∧ win1_12.index t (1 : Fin 2) = 0 :=
  (by decide +kernel : ∀ t : Fin grid1.N, _)

/-- Point t's encoded block: row p is row 5000 t + p of the encoded array. -/
theorem read1_0 (c : Dev nD) (t : Fin cfg1.N) (p : Fin 5000) (q : Fin 64) :
    (iblk1 V c 0 t : Vec Ideal S5000x64 .f32) (ix2 p q) = V c main_v2_0 (ix2 (row t p) q) := by
  unfold iblk1
  show V c main_v2_0 (((cfg1.win 0).blk t).view.emb (ix2 p q)) = _
  refine congrArg (V c main_v2_0) ?_
  obtain ⟨e0, e1, -⟩ := idx1 t
  funext a; apply Fin.ext
  match a with
  | ⟨0, _⟩ => show win1_0.index t (0 : Fin 2) * 5000 + 1 * p.val = 5000 * t.val + p.val; omega
  | ⟨1, _⟩ => show win1_0.index t (1 : Fin 2) * 64 + 1 * q.val = q.val; omega

/-- Point t's aggregate block: row p is row 5000 t + p of the aggregate array. -/
theorem read1_1 (c : Dev nD) (t : Fin cfg1.N) (p : Fin 5000) (q : Fin 64) :
    (iblk1 V c 1 t : Vec Ideal S5000x64 .f32) (ix2 p q) = V c main_v45 (ix2 (row t p) q) := by
  unfold iblk1
  show V c main_v45 (((cfg1.win 1).blk t).view.emb (ix2 p q)) = _
  refine congrArg (V c main_v45) ?_
  obtain ⟨-, -, e0, e1, -⟩ := idx1 t
  funext a; apply Fin.ext
  match a with
  | ⟨0, _⟩ => show win1_1.index t (0 : Fin 2) * 5000 + 1 * p.val = 5000 * t.val + p.val; omega
  | ⟨1, _⟩ => show win1_1.index t (1 : Fin 2) * 64 + 1 * q.val = q.val; omega

/-- Every point's block of the aggregate's bias row is the whole row. -/
theorem read1_2 (c : Dev nD) (t : Fin cfg1.N) (q : Fin 64) :
    (iblk1 V c 2 t : Vec Ideal S1x64 .f32) (ix2 (0 : Fin 1) q) = V c main_v54 (ix2 (0 : Fin 1) q) := by
  unfold iblk1
  show V c main_v54 (((cfg1.win 2).blk t).view.emb (ix2 (0 : Fin 1) q)) = _
  refine congrArg (V c main_v54) ?_
  obtain ⟨-, -, -, -, e0, e1, -⟩ := idx1 t
  funext a; apply Fin.ext
  match a with
  | ⟨0, _⟩ => show win1_2.index t (0 : Fin 2) * 1 + 1 * 0 = 0; omega
  | ⟨1, _⟩ => show win1_2.index t (1 : Fin 2) * 64 + 1 * q.val = q.val; omega

/-- Every point's block of the first head's hidden weights is the whole array. -/
theorem read1_3 (c : Dev nD) (t : Fin cfg1.N) (k : Fin 128) (q : Fin 128) :
    (iblk1 V c 3 t : Vec Ideal S128x128 .f32) (ix2 k q) = V c main_v47 (ix2 k q) := by
  unfold iblk1
  show V c main_v47 (((cfg1.win 3).blk t).view.emb (ix2 k q)) = _
  refine congrArg (V c main_v47) ?_
  obtain ⟨-, -, -, -, -, -, e0, e1, -⟩ := idx1 t
  funext a; apply Fin.ext
  match a with
  | ⟨0, _⟩ => show win1_3.index t (0 : Fin 2) * 128 + 1 * k.val = k.val; omega
  | ⟨1, _⟩ => show win1_3.index t (1 : Fin 2) * 128 + 1 * q.val = q.val; omega

/-- Every point's block of the first head's hidden bias row is the whole row. -/
theorem read1_4 (c : Dev nD) (t : Fin cfg1.N) (q : Fin 128) :
    (iblk1 V c 4 t : Vec Ideal S1x128 .f32) (ix2 (0 : Fin 1) q) = V c main_v55 (ix2 (0 : Fin 1) q) := by
  unfold iblk1
  show V c main_v55 (((cfg1.win 4).blk t).view.emb (ix2 (0 : Fin 1) q)) = _
  refine congrArg (V c main_v55) ?_
  obtain ⟨-, -, -, -, -, -, -, -, e0, e1, -⟩ := idx1 t
  funext a; apply Fin.ext
  match a with
  | ⟨0, _⟩ => show win1_4.index t (0 : Fin 2) * 1 + 1 * 0 = 0; omega
  | ⟨1, _⟩ => show win1_4.index t (1 : Fin 2) * 128 + 1 * q.val = q.val; omega

/-- Every point's block of the second head's hidden weights is the whole array. -/
theorem read1_5 (c : Dev nD) (t : Fin cfg1.N) (k : Fin 128) (q : Fin 128) :
    (iblk1 V c 5 t : Vec Ideal S128x128 .f32) (ix2 k q) = V c main_v51 (ix2 k q) := by
  unfold iblk1
  show V c main_v51 (((cfg1.win 5).blk t).view.emb (ix2 k q)) = _
  refine congrArg (V c main_v51) ?_
  obtain ⟨-, -, -, -, -, -, -, -, -, -, e0, e1, -⟩ := idx1 t
  funext a; apply Fin.ext
  match a with
  | ⟨0, _⟩ => show win1_5.index t (0 : Fin 2) * 128 + 1 * k.val = k.val; omega
  | ⟨1, _⟩ => show win1_5.index t (1 : Fin 2) * 128 + 1 * q.val = q.val; omega

/-- Every point's block of the second head's hidden bias row is the whole row. -/
theorem read1_6 (c : Dev nD) (t : Fin cfg1.N) (q : Fin 128) :
    (iblk1 V c 6 t : Vec Ideal S1x128 .f32) (ix2 (0 : Fin 1) q) = V c main_v56 (ix2 (0 : Fin 1) q) := by
  unfold iblk1
  show V c main_v56 (((cfg1.win 6).blk t).view.emb (ix2 (0 : Fin 1) q)) = _
  refine congrArg (V c main_v56) ?_
  obtain ⟨-, -, -, -, -, -, -, -, -, -, -, -, e0, e1, -⟩ := idx1 t
  funext a; apply Fin.ext
  match a with
  | ⟨0, _⟩ => show win1_6.index t (0 : Fin 2) * 1 + 1 * 0 = 0; omega
  | ⟨1, _⟩ => show win1_6.index t (1 : Fin 2) * 128 + 1 * q.val = q.val; omega

/-- Every point's block of the first head's read-out weights is the whole column. -/
theorem read1_7 (c : Dev nD) (t : Fin cfg1.N) (k : Fin 128) (q : Fin 1) :
    (iblk1 V c 7 t : Vec Ideal S128x1 .f32) (ix2 k q) = V c main_arg11 (ix2 k q) := by
  unfold iblk1
  show V c main_arg11 (((cfg1.win 7).blk t).view.emb (ix2 k q)) = _
  refine congrArg (V c main_arg11) ?_
  obtain ⟨-, -, -, -, -, -, -, -, -, -, -, -, -, -, e0, e1, -⟩ := idx1 t
  funext a; apply Fin.ext
  match a with
  | ⟨0, _⟩ => show win1_7.index t (0 : Fin 2) * 128 + 1 * k.val = k.val; omega
  | ⟨1, _⟩ => show win1_7.index t (1 : Fin 2) * 1 + 1 * q.val = q.val; omega

/-- Every point's block of the first head's read-out bias is the whole [1, 1] array. -/
theorem read1_8 (c : Dev nD) (t : Fin cfg1.N) (q : Fin 1) :
    (iblk1 V c 8 t : Vec Ideal S1x1 .f32) (ix2 (0 : Fin 1) q) = V c main_v57 (ix2 (0 : Fin 1) q) := by
  unfold iblk1
  show V c main_v57 (((cfg1.win 8).blk t).view.emb (ix2 (0 : Fin 1) q)) = _
  refine congrArg (V c main_v57) ?_
  obtain ⟨-, -, -, -, -, -, -, -, -, -, -, -, -, -, -, -, e0, e1, -⟩ := idx1 t
  funext a; apply Fin.ext
  match a with
  | ⟨0, _⟩ => show win1_8.index t (0 : Fin 2) * 1 + 1 * 0 = 0; omega
  | ⟨1, _⟩ => show win1_8.index t (1 : Fin 2) * 1 + 1 * q.val = q.val; omega

/-- Every point's block of the second head's read-out weights is the whole column. -/
theorem read1_9 (c : Dev nD) (t : Fin cfg1.N) (k : Fin 128) (q : Fin 1) :
    (iblk1 V c 9 t : Vec Ideal S128x1 .f32) (ix2 k q) = V c main_arg13 (ix2 k q) := by
  unfold iblk1
  show V c main_arg13 (((cfg1.win 9).blk t).view.emb (ix2 k q)) = _
  refine congrArg (V c main_arg13) ?_
  obtain ⟨-, -, -, -, -, -, -, -, -, -, -, -, -, -, -, -, -, -, e0, e1, -⟩ := idx1 t
  funext a; apply Fin.ext
  match a with
  | ⟨0, _⟩ => show win1_9.index t (0 : Fin 2) * 128 + 1 * k.val = k.val; omega
  | ⟨1, _⟩ => show win1_9.index t (1 : Fin 2) * 1 + 1 * q.val = q.val; omega

/-- Every point's block of the second head's read-out bias is the whole [1, 1] array. -/
theorem read1_10 (c : Dev nD) (t : Fin cfg1.N) (q : Fin 1) :
    (iblk1 V c 10 t : Vec Ideal S1x1 .f32) (ix2 (0 : Fin 1) q) = V c main_v58 (ix2 (0 : Fin 1) q) := by
  unfold iblk1
  show V c main_v58 (((cfg1.win 10).blk t).view.emb (ix2 (0 : Fin 1) q)) = _
  refine congrArg (V c main_v58) ?_
  obtain ⟨-, -, -, -, -, -, -, -, -, -, -, -, -, -, -, -, -, -, -, -, e0, e1, -⟩ := idx1 t
  funext a; apply Fin.ext
  match a with
  | ⟨0, _⟩ => show win1_10.index t (0 : Fin 2) * 1 + 1 * 0 = 0; omega
  | ⟨1, _⟩ => show win1_10.index t (1 : Fin 2) * 1 + 1 * q.val = q.val; omega

/-- Where point t's block of the first output column puts its entry (p, q): at row 5000 t + p. -/
theorem emb1_11 (t : Fin cfg1.N) (p : Fin 5000) (q : Fin 1) :
    ((cfg1.win 11).blk t).view.emb (ix2 p q) = ix2 (row t p) q := by
  obtain ⟨-, -, -, -, -, -, -, -, -, -, -, -, -, -, -, -, -, -, -, -, -, -, e0, e1, -⟩ := idx1 t
  funext a; apply Fin.ext
  match a with
  | ⟨0, _⟩ => show win1_11.index t (0 : Fin 2) * 5000 + 1 * p.val = 5000 * t.val + p.val; omega
  | ⟨1, _⟩ => show win1_11.index t (1 : Fin 2) * 1 + 1 * q.val = q.val; omega

/-- The same for the second output column. -/
theorem emb1_12 (t : Fin cfg1.N) (p : Fin 5000) (q : Fin 1) :
    ((cfg1.win 12).blk t).view.emb (ix2 p q) = ix2 (row t p) q := by
  obtain ⟨-, -, -, -, -, -, -, -, -, -, -, -, -, -, -, -, -, -, -, -, -, -, -, -, e0, e1⟩ := idx1 t
  funext a; apply Fin.ext
  match a with
  | ⟨0, _⟩ => show win1_12.index t (0 : Fin 2) * 5000 + 1 * p.val = 5000 * t.val + p.val; omega
  | ⟨1, _⟩ => show win1_12.index t (1 : Fin 2) * 1 + 1 * q.val = q.val; omega

/-! ## The two output columns as whole-array functions -/

/-- The first head on every row of the batch, from the region's entry contents. -/
def head0Rows (c : Dev nD) : Fin 100000 → Fin 1 → EReal := fun P =>
  head (fun j => V c main_v2_0 (ix2 P j)) (fun j => V c main_v45 (ix2 P j)) (fun j => V c main_v54 (ix2 (0 : Fin 1) j))
    (fun k q => V c main_v47 (ix2 k q)) (fun q => V c main_v55 (ix2 (0 : Fin 1) q))
    (fun k q => V c main_arg11 (ix2 k q)) (fun q => V c main_v57 (ix2 (0 : Fin 1) q))

/-- The second head on every row of the batch. -/
def head1Rows (c : Dev nD) : Fin 100000 → Fin 1 → EReal := fun P =>
  head (fun j => V c main_v2_0 (ix2 P j)) (fun j => V c main_v45 (ix2 P j)) (fun j => V c main_v54 (ix2 (0 : Fin 1) j))
    (fun k q => V c main_v51 (ix2 k q)) (fun q => V c main_v56 (ix2 (0 : Fin 1) q))
    (fun k q => V c main_arg13 (ix2 k q)) (fun q => V c main_v58 (ix2 (0 : Fin 1) q))

/-- What point t writes back to the first output column is its block of the first head's rows. -/
theorem flushed1_11 (c : Dev nD) (t : Fin cfg1.N) :
    (dat1 V c).flushed 11 t = ((cfg1.win 11).blk t).view.read (Elt Ideal) (ofRows (head0Rows V c)) := by
  show (cfg1.win 11).cut (grid1.coords t) ((dat1 V c).after 11 t) = _
  rw [after1_11]
  unfold out1_11
  rw [View.canon_unit_zero hz]
  simp only [View.ld_unit_zero (S := S5000x64) hz, View.ld_unit_zero (S := S1x64) hz, View.ld_unit_zero (S := S128x128) hz,
    View.ld_unit_zero (S := S1x128) hz, View.ld_unit_zero (S := S128x1) hz, View.ld_unit_zero (S := S1x1) hz]
  funext j
  obtain ⟨p, q, rfl⟩ : ∃ (p : Fin 5000) (q : Fin 1), j = ix2 p q := ⟨j 0, j 1, eq_ix2 j⟩
  show k1_pay1 (F := Ideal) (k1_pay6 (F := Ideal) (iblk1 V c 0 t) (iblk1 V c 1 t) (iblk1 V c 2 t) (iblk1 V c 3 t) (iblk1 V c 4 t)
      (iblk1 V c 7 t)) (iblk1 V c 8 t) (ix2 p q)
    = ofRows (head0Rows V c) (((cfg1.win 11).blk t).view.emb (ix2 p q))
  rw [emb1_11, rows_ofRows, rows_head0]
  unfold head0Rows
  simp only [read1_0, read1_1, read1_2, read1_3, read1_4, read1_7, read1_8]

/-- What point t writes back to the second output column is its block of the second head's rows. -/
theorem flushed1_12 (c : Dev nD) (t : Fin cfg1.N) :
    (dat1 V c).flushed 12 t = ((cfg1.win 12).blk t).view.read (Elt Ideal) (ofRows (head1Rows V c)) := by
  show (cfg1.win 12).cut (grid1.coords t) ((dat1 V c).after 12 t) = _
  rw [after1_12]
  unfold out1_12
  rw [View.canon_unit_zero hz]
  simp only [View.ld_unit_zero (S := S5000x64) hz, View.ld_unit_zero (S := S1x64) hz, View.ld_unit_zero (S := S128x128) hz,
    View.ld_unit_zero (S := S1x128) hz, View.ld_unit_zero (S := S128x1) hz, View.ld_unit_zero (S := S1x1) hz]
  funext j
  obtain ⟨p, q, rfl⟩ : ∃ (p : Fin 5000) (q : Fin 1), j = ix2 p q := ⟨j 0, j 1, eq_ix2 j⟩
  show k1_pay2 (F := Ideal) (k1_pay4 (F := Ideal) (iblk1 V c 0 t) (iblk1 V c 1 t) (iblk1 V c 2 t) (iblk1 V c 5 t) (iblk1 V c 6 t))
      (k1_pay5 (F := Ideal) (iblk1 V c 9 t)) (iblk1 V c 10 t) (ix2 p q)
    = ofRows (head1Rows V c) (((cfg1.win 12).blk t).view.emb (ix2 p q))
  rw [emb1_12, rows_ofRows, rows_head1]
  unfold head1Rows
  simp only [read1_0, read1_1, read1_2, read1_5, read1_6, read1_9, read1_10]

/-- An index of the first output column is in point t's block iff each coordinate is in the block's range. -/
theorem mem_blk1_11 (t : Fin cfg1.N) (i : S100000x1.Idx) :
    i ∈ ((cfg1.win 11).blk t).view.set ↔ ∀ a : Fin 2, win1_11.index t a * S5000x1.size a ≤ (i a).val
      ∧ (i a).val < win1_11.index t a * S5000x1.size a + S5000x1.size a := by
  show i ∈ ((View.whole main_v59_0).slice (win1_11.rect t)).set ↔ _
  rw [View.set_slice_whole, Rect.mem_set_unit]
  exact Iff.rfl

theorem mem_blk1_12 (t : Fin cfg1.N) (i : S100000x1.Idx) :
    i ∈ ((cfg1.win 12).blk t).view.set ↔ ∀ a : Fin 2, win1_12.index t a * S5000x1.size a ≤ (i a).val
      ∧ (i a).val < win1_12.index t a * S5000x1.size a + S5000x1.size a := by
  show i ∈ ((View.whole main_v59_1).slice (win1_12.rect t)).set ↔ _
  rw [View.set_slice_whole, Rect.mem_set_unit]
  exact Iff.rfl

/-- The 20 blocks of 5000 rows cover the first output column: row P lies in block P / 5000. -/
theorem covered1_11 (i : S100000x1.Idx) :
    ∃ t : Fin cfg1.N, (cfg1.win 11).flush t = true ∧ i ∈ ((cfg1.win 11).blk t).view.set := by
  have hi0 : (i 0).val < 100000 := (i 0).isLt
  have hi1 : (i 1).val < 1 := (i 1).isLt
  refine ⟨⟨(i 0).val / 5000, blockOf_lt _ hi0⟩, flush1_11 _, ?_⟩
  rw [mem_blk1_11]
  obtain ⟨-, -, -, -, -, -, -, -, -, -, -, -, -, -, -, -, -, -, -, -, -, -, e0, e1, -⟩ := idx1 ⟨(i 0).val / 5000, blockOf_lt _ hi0⟩
  intro a
  match a with
  | ⟨0, _⟩ =>
    show win1_11.index _ (0 : Fin 2) * 5000 ≤ (i 0).val ∧ (i 0).val < win1_11.index _ (0 : Fin 2) * 5000 + 5000
    rw [e0]; show (i 0).val / 5000 * 5000 ≤ (i 0).val ∧ (i 0).val < (i 0).val / 5000 * 5000 + 5000; omega
  | ⟨1, _⟩ =>
    show win1_11.index _ (1 : Fin 2) * 1 ≤ (i 1).val ∧ (i 1).val < win1_11.index _ (1 : Fin 2) * 1 + 1
    rw [e1]; omega

theorem covered1_12 (i : S100000x1.Idx) :
    ∃ t : Fin cfg1.N, (cfg1.win 12).flush t = true ∧ i ∈ ((cfg1.win 12).blk t).view.set := by
  have hi0 : (i 0).val < 100000 := (i 0).isLt
  have hi1 : (i 1).val < 1 := (i 1).isLt
  refine ⟨⟨(i 0).val / 5000, blockOf_lt _ hi0⟩, flush1_12 _, ?_⟩
  rw [mem_blk1_12]
  obtain ⟨-, -, -, -, -, -, -, -, -, -, -, -, -, -, -, -, -, -, -, -, -, -, -, -, e0, e1⟩ := idx1 ⟨(i 0).val / 5000, blockOf_lt _ hi0⟩
  intro a
  match a with
  | ⟨0, _⟩ =>
    show win1_12.index _ (0 : Fin 2) * 5000 ≤ (i 0).val ∧ (i 0).val < win1_12.index _ (0 : Fin 2) * 5000 + 5000
    rw [e0]; show (i 0).val / 5000 * 5000 ≤ (i 0).val ∧ (i 0).val < (i 0).val / 5000 * 5000 + 5000; omega
  | ⟨1, _⟩ =>
    show win1_12.index _ (1 : Fin 2) * 1 ≤ (i 1).val ∧ (i 1).val < win1_12.index _ (1 : Fin 2) * 1 + 1
    rw [e1]; omega

/-- After the region the first output column holds the first head's value at every row of the batch. -/
theorem head0_array (c : Dev nD) : (dat1 V c).arrAt 11 cfg1.N = ofRows (head0Rows V c) :=
  (dat1 V c).arrAt_eq_of_cover 11 (ofRows (head0Rows V c)) (fun t _ => flushed1_11 V c t) covered1_11

/-- After the region the second output column holds the second head's value at every row of the batch. -/
theorem head1_array (c : Dev nD) : (dat1 V c).arrAt 12 cfg1.N = ofRows (head1Rows V c) :=
  (dat1 V c).arrAt_eq_of_cover 12 (ofRows (head1Rows V c)) (fun t _ => flushed1_12 V c t) covered1_12

end Cert.KernelIdeal.Heads

end
-- ==== Proof.KernelHost.lean ====
/-
  The kernel program's host operations, read through the fold of buffer contents from the launch memory
  (Gen/KernelIdeal/Frame.lean: `W1` at the first region's entry, `W2` at its exit, `W3`, `W4`, `W5` after the three host
  stretches between the regions, `W6` at the second region's exit, `W7` at the return), for any float family.

  * No host operation and no region writes an argument array, so each argument reads its launch contents at every
    boundary.
  * Before the first region the treatments [100000] are viewed as a column [100000, 1] and the encoder's bias [64] as
    a row [1, 64].
  * Between the regions the program performs the message-passing step on the first region's projected array and the
    edge list, operation for operation as the reference does on its own projected array: it is ONE function
    `Shared.aggregate` of those two, which no proof here opens. The same stretch cuts matrix 1 and row 1 out of the
    stacked head parameters (the reference's own stages) and views the bias vectors as rows.
  * After the second region the two output columns [100000, 1] are flattened to [100000].
-/
import proofs.«179344_j58909771432452_1_alg».proof.Proof.Gen.KernelIdeal.Frame
import proofs.«179344_j58909771432452_1_alg».proof.Proof.RefRead
import Idealize.ShloMosaic.Lib.StableHlo.Run

set_option maxRecDepth 16384

noncomputable section

namespace Cert.Shared

open Idealize.ShloMosaic Cert.ReferenceIdeal Cert.ReferenceIdeal.ReadP

variable {F : FTy → Type} [FloatOps F]

/-- The message-passing step as one function of the projected array h and the edge list e: with self-loops added,
    the degree of each node, its inverse square root, the product of the two ends' values per edge, the rows of h
    gathered at the edges' sources, scaled, and summed into the edges' targets. -/
def aggregate (h : (⟨S100000x64, .f32⟩ : BufTy).Contents (Elt F)) (e : (⟨S2x1600000, .i32⟩ : BufTy).Contents (Elt F)) :
    (⟨S100000x64, .f32⟩ : BufTy).Contents (Elt F) :=
  Host.scatterAdd scatter_S100000x64_S1700000x1_S1700000x64_1_0_0_1 (val_main_v49 (F := F)) (val_main_v50 (F := F) e)
    (mulf (Host.gather gather_S100000x64_S1700000x1_S1700000x64_1_0_n_n_0_1_164 h (val_main_v44 (F := F) e)) (val_main_v47 (F := F) e))

/-- The reference's aggregate array is that function of its projected array and the edge list. -/
theorem ref_aggregate (x0 : (⟨S100000x128, .f32⟩ : BufTy).Contents (Elt F)) (x1 : (⟨S100000, .f32⟩ : BufTy).Contents (Elt F))
    (x2 : (⟨S2x1600000, .i32⟩ : BufTy).Contents (Elt F)) (x3 : (⟨S128x64, .f32⟩ : BufTy).Contents (Elt F))
    (x4 : (⟨S64, .f32⟩ : BufTy).Contents (Elt F)) (x5 : (⟨S64x64, .f32⟩ : BufTy).Contents (Elt F)) :
    val_main_v51 (F := F) x0 x1 x2 x3 x4 x5 = aggregate (val_main_v8 (F := F) x0 x1 x3 x4 x5) x2 := rfl

end Cert.Shared

namespace Cert.KernelIdeal.Host

open Cert.KernelIdeal Cert.KernelIdeal.Gen Idealize.ShloMosaic Idealize.ShloMosaic.TcCoe Idealize.SL.Sem
open Idealize.ShloMosaic.StableHlo Cert.ReferenceIdeal.ReadP

variable {F : FTy → Type} [FloatOps F]
variable (m : (ℓ : Loc nD τ sig) → Buf (Elt F) ℓ) (ρ : Dev nD → PrngReg)

/-! ## Through the first region -/

/-- A buffer that the two operations before the first region do not write, and that is not one of the region's
    arrays, holds its launch contents at the region's exit. -/
theorem exit0_keeps (c : Dev nD) (b : Ref sig .tc) (h0 : b ≠ main_v0) (h1 : b ≠ main_v1)
    (hw : ∀ w, Pipeline.arrRef spec0 w ≠ b) : W2 m ρ c (Proc.devRef .tc b) = m ((c : Thread nD τ).loc b) := by
  refine (W2_of_ne m ρ c b hw).trans ?_
  dsimp only [W1, hostOps0]
  simp only [after_cons, after_nil]
  rw [reshape_result_ne, reshape_result_ne]
  all_goals first | assumption | rfl

/-! ## The first region's entry -/

theorem entry0_arg0 (c : Dev nD) : W1 m ρ c (Proc.devRef .tc main_arg0) = m ((c : Thread nD τ).loc main_arg0) := by
  dsimp only [W1, hostOps0]; after_results
theorem entry0_arg3 (c : Dev nD) : W1 m ρ c (Proc.devRef .tc main_arg3) = m ((c : Thread nD τ).loc main_arg3) := by
  dsimp only [W1, hostOps0]; after_results
theorem entry0_arg5 (c : Dev nD) : W1 m ρ c (Proc.devRef .tc main_arg5) = m ((c : Thread nD τ).loc main_arg5) := by
  dsimp only [W1, hostOps0]; after_results

/-- The treatments viewed as a column. -/
theorem entry0_treatments (c : Dev nD) :
    W1 m ρ c (Proc.devRef .tc main_v0) = shapeCast S100000x1 (m ((c : Thread nD τ).loc main_arg1)) shapeCasts_S100000_S100000x1 := by
  dsimp only [W1, hostOps0]; after_results; rfl

/-- The encoder's bias viewed as a row. -/
theorem entry0_bias (c : Dev nD) :
    W1 m ρ c (Proc.devRef .tc main_v1) = shapeCast S1x64 (m ((c : Thread nD τ).loc main_arg4)) shapeCasts_S64_S1x64 := by
  dsimp only [W1, hostOps0]; after_results; rfl

/-! ## The message-passing step, stretch by stretch -/

theorem mid1_sources (c : Dev nD) : W3 m ρ c (Proc.devRef .tc main_v6) = val_main_v12 (F := F) (m ((c : Thread nD τ).loc main_arg2)) := by
  dsimp only [W3, hostOps1]; after_results; rw [exit0_keeps m ρ c main_arg2 (by decide) (by decide) (by decide)]; rfl

theorem mid1_targets (c : Dev nD) : W3 m ρ c (Proc.devRef .tc main_v9) = val_main_v15 (F := F) (m ((c : Thread nD τ).loc main_arg2)) := by
  dsimp only [W3, hostOps1]; after_results; rw [exit0_keeps m ρ c main_arg2 (by decide) (by decide) (by decide)]; rfl

theorem mid1_positive (c : Dev nD) : W3 m ρ c (Proc.devRef .tc main_v15) = val_main_v21 (F := F) (m ((c : Thread nD τ).loc main_arg2)) := by
  dsimp only [W3, hostOps1]; after_results; rw [exit0_keeps m ρ c main_arg2 (by decide) (by decide) (by decide)]; rfl

theorem mid1_rsqrt (c : Dev nD) : W3 m ρ c (Proc.devRef .tc main_v16) = val_main_v22 (F := F) (m ((c : Thread nD τ).loc main_arg2)) := by
  dsimp only [W3, hostOps1]; after_results; rw [exit0_keeps m ρ c main_arg2 (by decide) (by decide) (by decide)]; rfl

theorem mid1_zero (c : Dev nD) : W3 m ρ c (Proc.devRef .tc main_cst_2) = val_main_cst_2 (F := F) := by
  dsimp only [W3, hostOps1]; after_results; rfl

theorem mid1_projected (c : Dev nD) : W3 m ρ c (Proc.devRef .tc main_v2_1) = W2 m ρ c (Proc.devRef .tc main_v2_1) := by
  dsimp only [W3, hostOps1]; after_results

/-- The inverse square roots of the degrees (zero where the degree is not positive). -/
theorem mid2_normaliser (c : Dev nD) : W4 m ρ c (Proc.devRef .tc main_v17) = val_main_v23 (F := F) (m ((c : Thread nD τ).loc main_arg2)) := by
  have h15 := mid1_positive m ρ c
  have h16 := mid1_rsqrt m ρ c
  have h2 := mid1_zero m ρ c
  show StableHlo.after hostOps1_1 (W3 m ρ c) (Proc.devRef .tc main_v17) = _
  generalize W3 m ρ c = Wv at h15 h16 h2 ⊢
  dsimp only [hostOps1_1]
  after_results_simp
  rw [h15, h16, h2]
  rfl

theorem mid2_sources (c : Dev nD) : W4 m ρ c (Proc.devRef .tc main_v6) = val_main_v12 (F := F) (m ((c : Thread nD τ).loc main_arg2)) := by
  have h := mid1_sources m ρ c
  show StableHlo.after hostOps1_1 (W3 m ρ c) (Proc.devRef .tc main_v6) = _
  generalize W3 m ρ c = Wv at h ⊢
  dsimp only [hostOps1_1]
  after_results_simp
  exact h

theorem mid2_targets (c : Dev nD) : W4 m ρ c (Proc.devRef .tc main_v9) = val_main_v15 (F := F) (m ((c : Thread nD τ).loc main_arg2)) := by
  have h := mid1_targets m ρ c
  show StableHlo.after hostOps1_1 (W3 m ρ c) (Proc.devRef .tc main_v9) = _
  generalize W3 m ρ c = Wv at h ⊢
  dsimp only [hostOps1_1]
  after_results_simp
  exact h

theorem mid2_projected (c : Dev nD) : W4 m ρ c (Proc.devRef .tc main_v2_1) = W2 m ρ c (Proc.devRef .tc main_v2_1) := by
  have h := mid1_projected m ρ c
  show StableHlo.after hostOps1_1 (W3 m ρ c) (Proc.devRef .tc main_v2_1) = _
  generalize W3 m ρ c = Wv at h ⊢
  dsimp only [hostOps1_1]
  after_results_simp
  exact h

set_option maxHeartbeats 1000000 in
/-- The aggregate array the second region is entered with is the message-passing step of the first region's projected
    array and the edge list. -/
theorem entry1_aggregate (c : Dev nD) :
    W5 m ρ c (Proc.devRef .tc main_v45)
      = Cert.Shared.aggregate (F := F) (W2 m ρ c (Proc.devRef .tc main_v2_1)) (m ((c : Thread nD τ).loc main_arg2)) := by
  have h6 := mid2_sources m ρ c
  have h9 := mid2_targets m ρ c
  have h17 := mid2_normaliser m ρ c
  have hp := mid2_projected m ρ c
  show StableHlo.after hostOps1_2 (W4 m ρ c) (Proc.devRef .tc main_v45) = _
  generalize W4 m ρ c = Wv at h6 h9 h17 hp ⊢
  dsimp only [hostOps1_2]
  after_results_simp
  rw [h6, h9, h17, hp]
  rfl

/-! ## The second region's entry -/

/-- The encoded array is as the first region left it. -/
theorem entry1_encoded (c : Dev nD) : W5 m ρ c (Proc.devRef .tc main_v2_0) = W2 m ρ c (Proc.devRef .tc main_v2_0) := by
  show StableHlo.after hostOps1_2 (StableHlo.after hostOps1_1 (StableHlo.after hostOps1 (W2 m ρ c))) (Proc.devRef .tc main_v2_0) = _
  generalize W2 m ρ c = Wv
  dsimp only [hostOps1, hostOps1_1, hostOps1_2]
  after_results_simp

/-- The aggregate's bias viewed as a row. -/
theorem entry1_aggBias (c : Dev nD) :
    W5 m ρ c (Proc.devRef .tc main_v54) = shapeCast S1x64 (m ((c : Thread nD τ).loc main_arg6)) shapeCasts_S64_S1x64 := by
  have h := exit0_keeps m ρ c main_arg6 (by decide) (by decide) (by decide)
  show StableHlo.after hostOps1_2 (StableHlo.after hostOps1_1 (StableHlo.after hostOps1 (W2 m ρ c))) (Proc.devRef .tc main_v54) = _
  generalize W2 m ρ c = Wv at h ⊢
  dsimp only [hostOps1, hostOps1_1, hostOps1_2]
  after_results_simp
  rw [h]
  rfl

/-- The first head's hidden weights: matrix 1 of the stack, the reference's own stage. -/
theorem entry1_hidden0W (c : Dev nD) :
    W5 m ρ c (Proc.devRef .tc main_v47) = val_main_v75 (F := F) (m ((c : Thread nD τ).loc main_arg7)) := by
  have h := exit0_keeps m ρ c main_arg7 (by decide) (by decide) (by decide)
  show StableHlo.after hostOps1_2 (StableHlo.after hostOps1_1 (StableHlo.after hostOps1 (W2 m ρ c))) (Proc.devRef .tc main_v47) = _
  generalize W2 m ρ c = Wv at h ⊢
  dsimp only [hostOps1, hostOps1_1, hostOps1_2]
  after_results_simp
  rw [h]
  rfl

/-- The first head's hidden bias: row 1 of the stack (the reference's own stage), viewed as a row. -/
theorem entry1_hidden0b (c : Dev nD) :
    W5 m ρ c (Proc.devRef .tc main_v55)
      = shapeCast S1x128 (val_main_v78 (F := F) (m ((c : Thread nD τ).loc main_arg8))) shapeCasts_S128_S1x128 := by
  have h := exit0_keeps m ρ c main_arg8 (by decide) (by decide) (by decide)
  show StableHlo.after hostOps1_2 (StableHlo.after hostOps1_1 (StableHlo.after hostOps1 (W2 m ρ c))) (Proc.devRef .tc main_v55) = _
  generalize W2 m ρ c = Wv at h ⊢
  dsimp only [hostOps1, hostOps1_1, hostOps1_2]
  after_results_simp
  rw [h]
  rfl

/-- The second head's hidden weights. -/
theorem entry1_hidden1W (c : Dev nD) :
    W5 m ρ c (Proc.devRef .tc main_v51) = val_main_v84 (F := F) (m ((c : Thread nD τ).loc main_arg9)) := by
  have h := exit0_keeps m ρ c main_arg9 (by decide) (by decide) (by decide)
  show StableHlo.after hostOps1_2 (StableHlo.after hostOps1_1 (StableHlo.after hostOps1 (W2 m ρ c))) (Proc.devRef .tc main_v51) = _
  generalize W2 m ρ c = Wv at h ⊢
  dsimp only [hostOps1, hostOps1_1, hostOps1_2]
  after_results_simp
  rw [h]
  rfl

/-- The second head's hidden bias, viewed as a row. -/
theorem entry1_hidden1b (c : Dev nD) :
    W5 m ρ c (Proc.devRef .tc main_v56)
      = shapeCast S1x128 (val_main_v87 (F := F) (m ((c : Thread nD τ).loc main_arg10))) shapeCasts_S128_S1x128 := by
  have h := exit0_keeps m ρ c main_arg10 (by decide) (by decide) (by decide)
  show StableHlo.after hostOps1_2 (StableHlo.after hostOps1_1 (StableHlo.after hostOps1 (W2 m ρ c))) (Proc.devRef .tc main_v56) = _
  generalize W2 m ρ c = Wv at h ⊢
  dsimp only [hostOps1, hostOps1_1, hostOps1_2]
  after_results_simp
  rw [h]
  rfl

/-- The first head's read-out weights are the argument itself. -/
theorem entry1_readout0w (c : Dev nD) :
    W5 m ρ c (Proc.devRef .tc main_arg11) = m ((c : Thread nD τ).loc main_arg11) := by
  have h := exit0_keeps m ρ c main_arg11 (by decide) (by decide) (by decide)
  show StableHlo.after hostOps1_2 (StableHlo.after hostOps1_1 (StableHlo.after hostOps1 (W2 m ρ c))) (Proc.devRef .tc main_arg11) = _
  generalize W2 m ρ c = Wv at h ⊢
  dsimp only [hostOps1, hostOps1_1, hostOps1_2]
  after_results_simp
  exact h

/-- The first head's read-out bias viewed as a [1, 1] array. -/
theorem entry1_readout0b (c : Dev nD) :
    W5 m ρ c (Proc.devRef .tc main_v57) = shapeCast S1x1 (m ((c : Thread nD τ).loc main_arg12)) shapeCasts_S1_S1x1 := by
  have h := exit0_keeps m ρ c main_arg12 (by decide) (by decide) (by decide)
  show StableHlo.after hostOps1_2 (StableHlo.after hostOps1_1 (StableHlo.after hostOps1 (W2 m ρ c))) (Proc.devRef .tc main_v57) = _
  generalize W2 m ρ c = Wv at h ⊢
  dsimp only [hostOps1, hostOps1_1, hostOps1_2]
  after_results_simp
  rw [h]
  rfl

/-- The second head's read-out weights are the argument itself. -/
theorem entry1_readout1w (c : Dev nD) :
    W5 m ρ c (Proc.devRef .tc main_arg13) = m ((c : Thread nD τ).loc main_arg13) := by
  have h := exit0_keeps m ρ c main_arg13 (by decide) (by decide) (by decide)
  show StableHlo.after hostOps1_2 (StableHlo.after hostOps1_1 (StableHlo.after hostOps1 (W2 m ρ c))) (Proc.devRef .tc main_arg13) = _
  generalize W2 m ρ c = Wv at h ⊢
  dsimp only [hostOps1, hostOps1_1, hostOps1_2]
  after_results_simp
  exact h

/-- The second head's read-out bias viewed as a [1, 1] array. -/
theorem entry1_readout1b (c : Dev nD) :
    W5 m ρ c (Proc.devRef .tc main_v58) = shapeCast S1x1 (m ((c : Thread nD τ).loc main_arg14)) shapeCasts_S1_S1x1 := by
  have h := exit0_keeps m ρ c main_arg14 (by decide) (by decide) (by decide)
  show StableHlo.after hostOps1_2 (StableHlo.after hostOps1_1 (StableHlo.after hostOps1 (W2 m ρ c))) (Proc.devRef .tc main_v58) = _
  generalize W2 m ρ c = Wv at h ⊢
  dsimp only [hostOps1, hostOps1_1, hostOps1_2]
  after_results_simp
  rw [h]
  rfl

/-! ## The return -/

/-- The first result: the second region's second output column, flattened. -/
theorem return_y1 (c : Dev nD) :
    W7 m ρ c (Proc.devRef .tc main_v61)
      = shapeCast S100000 (W6 m ρ c (Proc.devRef .tc main_v59_1)) shapeCasts_S100000x1_S100000 := by
  show StableHlo.after hostOps2 (W6 m ρ c) (Proc.devRef .tc main_v61) = _
  generalize W6 m ρ c = Wv
  dsimp only [hostOps2]
  after_results
  rfl

/-- The second result: the second region's first output column, flattened. -/
theorem return_y0 (c : Dev nD) :
    W7 m ρ c (Proc.devRef .tc main_v60)
      = shapeCast S100000 (W6 m ρ c (Proc.devRef .tc main_v59_0)) shapeCasts_S100000x1_S100000 := by
  show StableHlo.after hostOps2 (W6 m ρ c) (Proc.devRef .tc main_v60) = _
  generalize W6 m ρ c = Wv
  dsimp only [hostOps2]
  after_results
  rfl

/-- The third result: the encoded array as the second region left it. -/
theorem return_encoded (c : Dev nD) : W7 m ρ c (Proc.devRef .tc main_v2_0) = W6 m ρ c (Proc.devRef .tc main_v2_0) := by
  show StableHlo.after hostOps2 (W6 m ρ c) (Proc.devRef .tc main_v2_0) = _
  generalize W6 m ρ c = Wv
  dsimp only [hostOps2]
  after_results

end Cert.KernelIdeal.Host

end
-- ==== Proof.RefRows.lean ====
/-
  The reference program's stages, read row by row on extended reals.

  Every float stage of the reference that is an [R, C] array treats the rows of the batch independently, so it has a
  row-by-row description in the network's own terms (Net.lean): the encoded array (`encRows`), the projected array
  (`projRows`), and each head's output column (`head0Rows`, `head1Rows`). A head's description takes its two inputs — the
  encoded array and the aggregate array (the message-passing step's result, which mixes rows) — as they stand, entry
  by entry: a head does not depend on how they were computed, and the aggregate is never opened.
  The weights and biases of the heads' hidden layers are the reference's own stages (matrix 1 of a stack of two, row 1
  of a stack of two), carried as they are.
-/
import proofs.«179344_j58909771432452_1_alg».proof.Proof.RefRead
import proofs.«179344_j58909771432452_1_alg».proof.Proof.Net

set_option maxRecDepth 16384

noncomputable section

open scoped BigOperators

namespace Cert.ReferenceIdeal.RefRows

open Cert.ReferenceIdeal Cert.ReferenceIdeal.ReadP Idealize.ShloMosaic Idealize.ShloMosaic.ValueIdx
open Idealize.ShloMosaic.RowWise Cert.Net

theorem plain_enc : PlainDot.IsPlain dot_S100000x128_S128x64_S100000x64_1_0_0_1_n_n := ⟨rfl, rfl, rfl, rfl, rfl, rfl⟩
theorem plain_proj : PlainDot.IsPlain dot_S100000x64_S64x64_S100000x64_1_0_0_1_n_n := ⟨rfl, rfl, rfl, rfl, rfl, rfl⟩
theorem plain_hid : PlainDot.IsPlain dot_S100000x128_S128x128_S100000x128_1_0_0_1_n_n := ⟨rfl, rfl, rfl, rfl, rfl, rfl⟩
theorem plain_out : PlainDot.IsPlain dot_S100000x128_S128x1_S100000x1_1_0_0_1_n_n := ⟨rfl, rfl, rfl, rfl, rfl, rfl⟩

/-- A length-R vector laid out by the host as a column and repeated across C columns: entry (p, q) is the vector at p. -/
theorem rows_hostColumn {R C : ℕ} (x : (⟨1, ![R]⟩ : Shape).Idx → EReal)
    (h1 : (⟨1, ![R]⟩ : Shape).BroadcastsInDim ⟨2, ![R, 1]⟩ ![0])
    (h2 : (⟨2, ![R, 1]⟩ : Shape).BroadcastsInDim ⟨2, ![R, C]⟩ ![0, 1]) :
    Rows (broadcastInDim ⟨2, ![R, C]⟩ ![0, 1] h2 (broadcastInDim ⟨2, ![R, 1]⟩ ![0] h1 x)) fun p _ => x (ix1 p) := fun p q =>
  (broadcastInDim_apply ![0, 1] h2 _ (ix2 p q) (ix2 p (0 : Fin 1)) fun ax => by
      match ax with
      | ⟨0, _⟩ =>
        show p.val = if R = 1 then 0 else p.val
        split
        · have := p.isLt; omega
        · rfl
      | ⟨1, _⟩ => rfl).trans
    (broadcastInDim_apply ![0] h1 x (ix2 p (0 : Fin 1)) (ix1 p) fun ax => by
      match ax with
      | ⟨0, _⟩ =>
        show p.val = if R = 1 then 0 else p.val
        split
        · have := p.isLt; omega
        · rfl)

/-! ## The encoder and the projection -/

/-- The encoded rows of the batch. -/
def encRows (x0 : (⟨S100000x128, .f32⟩ : BufTy).Contents (Elt Ideal)) (x3 : (⟨S128x64, .f32⟩ : BufTy).Contents (Elt Ideal)) (x4 : (⟨S64, .f32⟩ : BufTy).Contents (Elt Ideal)) : Fin 100000 → Fin 64 → EReal := fun P =>
  encode (fun k => x0 (ix2 P k)) (fun k q => x3 (ix2 k q)) (fun q => x4 (ix1 q))

theorem rows_enc (x0 : (⟨S100000x128, .f32⟩ : BufTy).Contents (Elt Ideal)) (x3 : (⟨S128x64, .f32⟩ : BufTy).Contents (Elt Ideal)) (x4 : (⟨S64, .f32⟩ : BufTy).Contents (Elt Ideal)) :
    Rows (val_main_v4 (F := Ideal) x0 x3 x4) (encRows x0 x3 x4) := by
  unfold val_main_v4 val_main_v3 val_main_v0 val_main_v2 val_main_v1 val_main_call0_v0 val_main_call0_cst
  exact rows_maximumf (rows_addf (rows_dotGeneral plain_enc none (rows_self x0) (rows_self x3)) (rows_hostBias x4 _ _))
    (rows_hostConstant _ _)

/-- The projected rows of the batch. -/
def projRows (x0 : (⟨S100000x128, .f32⟩ : BufTy).Contents (Elt Ideal)) (x1 : (⟨S100000, .f32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) :
    Fin 100000 → Fin 64 → EReal := fun P =>
  project (x1 (ix1 P)) (encRows x0 x3 x4 P) (fun k q => x5 (ix2 k q))

theorem rows_proj (x0 : (⟨S100000x128, .f32⟩ : BufTy).Contents (Elt Ideal)) (x1 : (⟨S100000, .f32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) :
    Rows (val_main_v8 (F := Ideal) x0 x1 x3 x4 x5) (projRows x0 x1 x3 x4 x5) := by
  unfold val_main_v8 val_main_v7 val_main_v6 val_main_v5
  exact rows_dotGeneral plain_proj none (rows_mulf (rows_hostColumn x1 _ _) (rows_enc x0 x3 x4)) (rows_self x5)

/-- The reference's encoded array is the array of the encoded rows. -/
theorem enc_eq (x0 : (⟨S100000x128, .f32⟩ : BufTy).Contents (Elt Ideal)) (x3 : (⟨S128x64, .f32⟩ : BufTy).Contents (Elt Ideal)) (x4 : (⟨S64, .f32⟩ : BufTy).Contents (Elt Ideal)) :
    val_main_v4 (F := Ideal) x0 x3 x4 = ofRows (encRows x0 x3 x4) := eq_ofRows (rows_enc x0 x3 x4)

/-- The reference's projected array is the array of the projected rows. -/
theorem proj_eq (x0 : (⟨S100000x128, .f32⟩ : BufTy).Contents (Elt Ideal)) (x1 : (⟨S100000, .f32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) :
    val_main_v8 (F := Ideal) x0 x1 x3 x4 x5 = ofRows (projRows x0 x1 x3 x4 x5) := eq_ofRows (rows_proj x0 x1 x3 x4 x5)

/-! ## The two heads -/

/-- The first head on every row of the batch: the encoded row and the aggregate row (as the reference's two arrays
    have them) through the head with the second matrix and the second bias row of the stacked parameters. -/
def head0Rows (x0 : (⟨S100000x128, .f32⟩ : BufTy).Contents (Elt Ideal)) (x1 : (⟨S100000, .f32⟩ : BufTy).Contents (Elt Ideal)) (x2 : (⟨S2x1600000, .i32⟩ : BufTy).Contents (Elt Ideal)) (x3 : (⟨S128x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal)) (x7 : (⟨S2x128x128, .f32⟩ : BufTy).Contents (Elt Ideal)) (x8 : (⟨S2x128, .f32⟩ : BufTy).Contents (Elt Ideal)) (x11 : (⟨S128x1, .f32⟩ : BufTy).Contents (Elt Ideal)) (x12 : (⟨S1, .f32⟩ : BufTy).Contents (Elt Ideal)) :
    Fin 100000 → Fin 1 → EReal := fun P =>
  head (fun j => val_main_v4 (F := Ideal) x0 x3 x4 (ix2 P j)) (fun j => val_main_v51 (F := Ideal) x0 x1 x2 x3 x4 x5 (ix2 P j)) (fun j => x6 (ix1 j))
    (fun k q => val_main_v75 (F := Ideal) x7 (ix2 k q)) (fun q => val_main_v78 (F := Ideal) x8 (ix1 q))
    (fun k q => x11 (ix2 k q)) (fun q => x12 (ix1 q))

theorem rows_head0 (x0 : (⟨S100000x128, .f32⟩ : BufTy).Contents (Elt Ideal)) (x1 : (⟨S100000, .f32⟩ : BufTy).Contents (Elt Ideal)) (x2 : (⟨S2x1600000, .i32⟩ : BufTy).Contents (Elt Ideal)) (x3 : (⟨S128x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal)) (x7 : (⟨S2x128x128, .f32⟩ : BufTy).Contents (Elt Ideal)) (x8 : (⟨S2x128, .f32⟩ : BufTy).Contents (Elt Ideal)) (x11 : (⟨S128x1, .f32⟩ : BufTy).Contents (Elt Ideal)) (x12 : (⟨S1, .f32⟩ : BufTy).Contents (Elt Ideal)) :
    Rows (val_main_v95 (F := Ideal) x0 x1 x2 x3 x4 x5 x6 x7 x8 x11 x12) (head0Rows x0 x1 x2 x3 x4 x5 x6 x7 x8 x11 x12) := by
  unfold val_main_v95 val_main_v94 val_main_v93 val_main_v92 val_main_v82 val_main_call4_v0 val_main_call4_cst val_main_v81
    val_main_v80 val_main_v79 val_main_v76 val_main_v55 val_main_v54 val_main_v53 val_main_v52
  exact rows_addf (rows_dotGeneral plain_out none
      (rows_maximumf (rows_addf (rows_dotGeneral plain_hid none
          (rows_concat rfl (rows_self _) (rows_addf (rows_self _) (rows_hostBias x6 _ _)) _) (rows_self _))
        (rows_hostBias _ _ _)) (rows_hostConstant _ _))
      (rows_self x11))
    (rows_hostBias x12 _ _)

/-- The second head on every row of the batch. -/
def head1Rows (x0 : (⟨S100000x128, .f32⟩ : BufTy).Contents (Elt Ideal)) (x1 : (⟨S100000, .f32⟩ : BufTy).Contents (Elt Ideal)) (x2 : (⟨S2x1600000, .i32⟩ : BufTy).Contents (Elt Ideal)) (x3 : (⟨S128x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal)) (x9 : (⟨S2x128x128, .f32⟩ : BufTy).Contents (Elt Ideal)) (x10 : (⟨S2x128, .f32⟩ : BufTy).Contents (Elt Ideal)) (x13 : (⟨S128x1, .f32⟩ : BufTy).Contents (Elt Ideal)) (x14 : (⟨S1, .f32⟩ : BufTy).Contents (Elt Ideal)) :
    Fin 100000 → Fin 1 → EReal := fun P =>
  head (fun j => val_main_v4 (F := Ideal) x0 x3 x4 (ix2 P j)) (fun j => val_main_v51 (F := Ideal) x0 x1 x2 x3 x4 x5 (ix2 P j)) (fun j => x6 (ix1 j))
    (fun k q => val_main_v84 (F := Ideal) x9 (ix2 k q)) (fun q => val_main_v87 (F := Ideal) x10 (ix1 q))
    (fun k q => x13 (ix2 k q)) (fun q => x14 (ix1 q))

theorem rows_head1 (x0 : (⟨S100000x128, .f32⟩ : BufTy).Contents (Elt Ideal)) (x1 : (⟨S100000, .f32⟩ : BufTy).Contents (Elt Ideal)) (x2 : (⟨S2x1600000, .i32⟩ : BufTy).Contents (Elt Ideal)) (x3 : (⟨S128x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal)) (x9 : (⟨S2x128x128, .f32⟩ : BufTy).Contents (Elt Ideal)) (x10 : (⟨S2x128, .f32⟩ : BufTy).Contents (Elt Ideal)) (x13 : (⟨S128x1, .f32⟩ : BufTy).Contents (Elt Ideal)) (x14 : (⟨S1, .f32⟩ : BufTy).Contents (Elt Ideal)) :
    Rows (val_main_v100 (F := Ideal) x0 x1 x2 x3 x4 x5 x6 x9 x10 x13 x14) (head1Rows x0 x1 x2 x3 x4 x5 x6 x9 x10 x13 x14) := by
  unfold val_main_v100 val_main_v99 val_main_v98 val_main_v97 val_main_v91 val_main_call5_v0 val_main_call5_cst val_main_v90
    val_main_v89 val_main_v88 val_main_v85 val_main_v55 val_main_v54 val_main_v53 val_main_v52
  exact rows_addf (rows_dotGeneral plain_out none
      (rows_maximumf (rows_addf (rows_dotGeneral plain_hid none
          (rows_concat rfl (rows_self _) (rows_addf (rows_self _) (rows_hostBias x6 _ _)) _) (rows_self _))
        (rows_hostBias _ _ _)) (rows_hostConstant _ _))
      (rows_self x13))
    (rows_hostBias x14 _ _)

/-- The reference's first output column, before it is flattened, is the column of the first head's rows. -/
theorem head0_eq (x0 : (⟨S100000x128, .f32⟩ : BufTy).Contents (Elt Ideal)) (x1 : (⟨S100000, .f32⟩ : BufTy).Contents (Elt Ideal)) (x2 : (⟨S2x1600000, .i32⟩ : BufTy).Contents (Elt Ideal)) (x3 : (⟨S128x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal)) (x7 : (⟨S2x128x128, .f32⟩ : BufTy).Contents (Elt Ideal)) (x8 : (⟨S2x128, .f32⟩ : BufTy).Contents (Elt Ideal)) (x11 : (⟨S128x1, .f32⟩ : BufTy).Contents (Elt Ideal)) (x12 : (⟨S1, .f32⟩ : BufTy).Contents (Elt Ideal)) :
    val_main_v95 (F := Ideal) x0 x1 x2 x3 x4 x5 x6 x7 x8 x11 x12 = ofRows (head0Rows x0 x1 x2 x3 x4 x5 x6 x7 x8 x11 x12) :=
  eq_ofRows (rows_head0 x0 x1 x2 x3 x4 x5 x6 x7 x8 x11 x12)

/-- The reference's second output column, before it is flattened, is the column of the second head's rows. -/
theorem head1_eq (x0 : (⟨S100000x128, .f32⟩ : BufTy).Contents (Elt Ideal)) (x1 : (⟨S100000, .f32⟩ : BufTy).Contents (Elt Ideal)) (x2 : (⟨S2x1600000, .i32⟩ : BufTy).Contents (Elt Ideal)) (x3 : (⟨S128x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal)) (x9 : (⟨S2x128x128, .f32⟩ : BufTy).Contents (Elt Ideal)) (x10 : (⟨S2x128, .f32⟩ : BufTy).Contents (Elt Ideal)) (x13 : (⟨S128x1, .f32⟩ : BufTy).Contents (Elt Ideal)) (x14 : (⟨S1, .f32⟩ : BufTy).Contents (Elt Ideal)) :
    val_main_v100 (F := Ideal) x0 x1 x2 x3 x4 x5 x6 x9 x10 x13 x14 = ofRows (head1Rows x0 x1 x2 x3 x4 x5 x6 x9 x10 x13 x14) :=
  eq_ofRows (rows_head1 x0 x1 x2 x3 x4 x5 x6 x9 x10 x13 x14)

end Cert.ReferenceIdeal.RefRows

end
-- ==== Proof.LibKeepdims.lean ====
/- A vector viewed as a one-column array, and a sum over a rank-1 index set: the two index facts a row reduction kept as a
   column (`sum(axis=1, keepdims=True)`) meets. -/
import Idealize.ShloMosaic.Lib.Pipeline.Value
import Idealize.ShloMosaic.Lib.ValueIdx

open Idealize.ShloMosaic Idealize.ShloMosaic.ValueIdx
open scoped BigOperators

namespace Idealize.ShloMosaic.Keepdims

/-- A length-`a` vector viewed as an [a, 1] column reads, at (p, q), the vector at p: both have row-major position p. -/
theorem shapeCast_a_a1_apply {α : Type} {a : ℕ} (x : (⟨1, ![a]⟩ : Shape).Idx → α) (h : (⟨1, ![a]⟩ : Shape).ShapeCasts ⟨2, ![a, 1]⟩)
    (p : Fin a) (q : Fin 1) : shapeCast ⟨2, ![a, 1]⟩ x h (ix2 p q) = x (ix1 p) :=
  shapeCast_apply x h _ _ (by
    have hq : q.val = 0 := by omega
    rw [Shape.rowMajor_val_two, Shape.rowMajor_val_one]
    show p.val = p.val * 1 + q.val
    rw [hq, Nat.mul_one, Nat.add_zero])

/-- An [a, 1] column viewed as a length-`a` vector reads, at p, the column at (p, 0). -/
theorem shapeCast_a1_a_apply {α : Type} {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A sum over a rank-1 index set is the sum over its coordinate. -/
theorem sum_idx1 {M : Type*} [AddCommMonoid M] {n : ℕ} (f : (⟨1, ![n]⟩ : Shape).Idx → M) : ∑ i, f i = ∑ a : Fin n, f (ix1 a) :=
  Fintype.sum_equiv ⟨fun i => i 0, fun a => ix1 a, fun i => (eq_ix1 i).symm, fun _ => rfl⟩ f (fun a => f (ix1 a))
    (fun i => congrArg f (eq_ix1 i))

end Idealize.ShloMosaic.Keepdims
-- ==== Proof.Bridge.lean ====
/-
  The kernel program's three results are the reference's, as functions of the arguments (at the extended reals).

  Read through the fold of buffer contents (KernelHost.lean) and the two regions' whole-array values (Region0.lean,
  Region1.lean), from any launch memory m:
  * the first region's encoded array is the reference's encoded stage of the arguments, and its projected array the
    reference's projected stage: row by row both are the same row functions (RefRows.lean);
  * so the aggregate array the second region is entered with — the message-passing step of the projected array and
    the edge list — is the reference's aggregate stage;
  * so each head's rows, computed by the second region from the encoded array, that aggregate array and the head's
    parameters, are the reference's head rows, and each output column is the reference's;
  * flattened, the two columns are the reference's first two results, and the encoded array is its third.
-/
import proofs.«179344_j58909771432452_1_alg».proof.Proof.Region0
import proofs.«179344_j58909771432452_1_alg».proof.Proof.Region1
import proofs.«179344_j58909771432452_1_alg».proof.Proof.KernelHost
import proofs.«179344_j58909771432452_1_alg».proof.Proof.RefRows
import proofs.«179344_j58909771432452_1_alg».proof.Proof.LibKeepdims

set_option maxRecDepth 16384

noncomputable section

namespace Cert.KernelIdeal.Results

open Cert.KernelIdeal Cert.KernelIdeal.Gen Idealize.ShloMosaic Idealize.ShloMosaic.TcCoe Idealize.ShloMosaic.ValueIdx
open Idealize.ShloMosaic.RowWise Idealize.SL.Sem Cert.Net
open Cert.ReferenceIdeal.ReadP Cert.ReferenceIdeal.RefRows

variable (m : (ℓ : Loc nD τ sig) → Buf (Elt Ideal) ℓ) (ρ : Dev nD → PrngReg) (c : Dev nD)

/-- Argument number K of the kernel program, as launched. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)
abbrev a9 := m ((c : Thread nD τ).loc main_arg9)
abbrev a10 := m ((c : Thread nD τ).loc main_arg10)
abbrev a11 := m ((c : Thread nD τ).loc main_arg11)
abbrev a12 := m ((c : Thread nD τ).loc main_arg12)
abbrev a13 := m ((c : Thread nD τ).loc main_arg13)
abbrev a14 := m ((c : Thread nD τ).loc main_arg14)

/-! ## The first region -/

/-- The first region's encoded rows are the reference's. -/
theorem encodedRows_eq : Enc.encodedRows (V1 m ρ) c = encRows (a0 m c) (a3 m c) (a4 m c) := by
  funext P
  unfold Enc.encodedRows encRows
  have e0 : V1 m ρ c main_arg0 = a0 m c := Host.entry0_arg0 m ρ c
  have e3 : V1 m ρ c main_arg3 = a3 m c := Host.entry0_arg3 m ρ c
  have e1 : ∀ q : Fin 64, V1 m ρ c main_v1 (ix2 (0 : Fin 1) q) = a4 m c (ix1 q) := fun q => by
    rw [show V1 m ρ c main_v1 = _ from Host.entry0_bias m ρ c]
    exact shapeCast_c_1c_apply _ _ 0 q
  rw [e0, e3]
  simp only [e1]

/-- The first region's projected rows are the reference's. -/
theorem projectedRows_eq : Enc.projectedRows (V1 m ρ) c = projRows (a0 m c) (a1 m c) (a3 m c) (a4 m c) (a5 m c) := by
  funext P
  unfold Enc.projectedRows projRows
  have e5 : V1 m ρ c main_arg5 = a5 m c := Host.entry0_arg5 m ρ c
  have et : V1 m ρ c main_v0 (ix2 P (0 : Fin 1)) = a1 m c (ix1 P) := by
    rw [show V1 m ρ c main_v0 = _ from Host.entry0_treatments m ρ c]
    exact Keepdims.shapeCast_a_a1_apply _ _ P 0
  rw [e5, et, encodedRows_eq]

/-- At the first region's exit the encoded array is the reference's encoded stage of the arguments. -/
theorem exit0_encoded :
    W2 m ρ c (Proc.devRef .tc main_v2_0) = val_main_v4 (F := Ideal) (a0 m c) (a3 m c) (a4 m c) :=
  (W2_arr m ρ c 5).trans ((Enc.encoded_array (V1 m ρ) c).trans (by rw [encodedRows_eq, enc_eq]))

/-- At the first region's exit the projected array is the reference's projected stage of the arguments. -/
theorem exit0_projected :
    W2 m ρ c (Proc.devRef .tc main_v2_1) = val_main_v8 (F := Ideal) (a0 m c) (a1 m c) (a3 m c) (a4 m c) (a5 m c) :=
  (W2_arr m ρ c 6).trans ((Enc.projected_array (V1 m ρ) c).trans (by rw [projectedRows_eq, proj_eq]))

/-! ## The second region's entry -/

/-- The aggregate array the second region is entered with is the reference's aggregate stage. -/
theorem entry1_aggregate :
    V5 m ρ c main_v45 = val_main_v51 (F := Ideal) (a0 m c) (a1 m c) (a2 m c) (a3 m c) (a4 m c) (a5 m c) :=
  (Host.entry1_aggregate m ρ c).trans (by rw [exit0_projected, Cert.Shared.ref_aggregate])

/-- The encoded array the second region is entered with is the reference's encoded stage. -/
theorem entry1_encoded : V5 m ρ c main_v2_0 = val_main_v4 (F := Ideal) (a0 m c) (a3 m c) (a4 m c) :=
  (Host.entry1_encoded m ρ c).trans (exit0_encoded m ρ c)

/-! ## The second region -/

/-- The second region's first-head rows are the reference's. -/
theorem head0Rows_eq :
    Heads.head0Rows (V5 m ρ) c
      = head0Rows (a0 m c) (a1 m c) (a2 m c) (a3 m c) (a4 m c) (a5 m c) (a6 m c) (a7 m c) (a8 m c) (a11 m c) (a12 m c) := by
  funext P
  unfold Heads.head0Rows head0Rows
  have h1 := entry1_encoded m ρ c
  have h2 := entry1_aggregate m ρ c
  have h3 : ∀ j : Fin 64, V5 m ρ c main_v54 (ix2 (0 : Fin 1) j) = a6 m c (ix1 j) := fun j => by
    rw [show V5 m ρ c main_v54 = _ from Host.entry1_aggBias m ρ c]
    exact shapeCast_c_1c_apply _ _ 0 j
  have h4 : V5 m ρ c main_v47 = val_main_v75 (F := Ideal) (a7 m c) := Host.entry1_hidden0W m ρ c
  have h5 : ∀ q : Fin 128, V5 m ρ c main_v55 (ix2 (0 : Fin 1) q) = val_main_v78 (F := Ideal) (a8 m c) (ix1 q) := fun q => by
    rw [show V5 m ρ c main_v55 = _ from Host.entry1_hidden0b m ρ c]
    exact shapeCast_c_1c_apply _ _ 0 q
  have h6 : V5 m ρ c main_arg11 = a11 m c := Host.entry1_readout0w m ρ c
  have h7 : ∀ q : Fin 1, V5 m ρ c main_v57 (ix2 (0 : Fin 1) q) = a12 m c (ix1 q) := fun q => by
    rw [show V5 m ρ c main_v57 = _ from Host.entry1_readout0b m ρ c]
    exact shapeCast_c_1c_apply _ _ 0 q
  rw [h1, h2, h4, h6]
  simp only [h3, h5, h7]

/-- The second region's second-head rows are the reference's. -/
theorem head1Rows_eq :
    Heads.head1Rows (V5 m ρ) c
      = head1Rows (a0 m c) (a1 m c) (a2 m c) (a3 m c) (a4 m c) (a5 m c) (a6 m c) (a9 m c) (a10 m c) (a13 m c) (a14 m c) := by
  funext P
  unfold Heads.head1Rows head1Rows
  have h1 := entry1_encoded m ρ c
  have h2 := entry1_aggregate m ρ c
  have h3 : ∀ j : Fin 64, V5 m ρ c main_v54 (ix2 (0 : Fin 1) j) = a6 m c (ix1 j) := fun j => by
    rw [show V5 m ρ c main_v54 = _ from Host.entry1_aggBias m ρ c]
    exact shapeCast_c_1c_apply _ _ 0 j
  have h4 : V5 m ρ c main_v51 = val_main_v84 (F := Ideal) (a9 m c) := Host.entry1_hidden1W m ρ c
  have h5 : ∀ q : Fin 128, V5 m ρ c main_v56 (ix2 (0 : Fin 1) q) = val_main_v87 (F := Ideal) (a10 m c) (ix1 q) := fun q => by
    rw [show V5 m ρ c main_v56 = _ from Host.entry1_hidden1b m ρ c]
    exact shapeCast_c_1c_apply _ _ 0 q
  have h6 : V5 m ρ c main_arg13 = a13 m c := Host.entry1_readout1w m ρ c
  have h7 : ∀ q : Fin 1, V5 m ρ c main_v58 (ix2 (0 : Fin 1) q) = a14 m c (ix1 q) := fun q => by
    rw [show V5 m ρ c main_v58 = _ from Host.entry1_readout1b m ρ c]
    exact shapeCast_c_1c_apply _ _ 0 q
  rw [h1, h2, h4, h6]
  simp only [h3, h5, h7]

/-! ## The three results -/

/-- The first result (the second head's column, flattened) is the reference's first result. -/
theorem result_y1 :
    W7 m ρ c (Proc.devRef .tc main_v61)
      = val_main_v101 (F := Ideal) (a0 m c) (a1 m c) (a2 m c) (a3 m c) (a4 m c) (a5 m c) (a6 m c) (a9 m c) (a10 m c) (a13 m c) (a14 m c) := by
  have hcol : W6 m ρ c (Proc.devRef .tc main_v59_1)
      = val_main_v100 (F := Ideal) (a0 m c) (a1 m c) (a2 m c) (a3 m c) (a4 m c) (a5 m c) (a6 m c) (a9 m c) (a10 m c) (a13 m c) (a14 m c) :=
    (W6_arr m ρ c 12).trans ((Heads.head1_array (V5 m ρ) c).trans (by rw [head1Rows_eq, head1_eq]))
  rw [Host.return_y1, hcol]
  rfl

/-- The second result (the first head's column, flattened) is the reference's second result. -/
theorem result_y0 :
    W7 m ρ c (Proc.devRef .tc main_v60)
      = val_main_v96 (F := Ideal) (a0 m c) (a1 m c) (a2 m c) (a3 m c) (a4 m c) (a5 m c) (a6 m c) (a7 m c) (a8 m c) (a11 m c) (a12 m c) := by
  have hcol : W6 m ρ c (Proc.devRef .tc main_v59_0)
      = val_main_v95 (F := Ideal) (a0 m c) (a1 m c) (a2 m c) (a3 m c) (a4 m c) (a5 m c) (a6 m c) (a7 m c) (a8 m c) (a11 m c) (a12 m c) :=
    (W6_arr m ρ c 11).trans ((Heads.head0_array (V5 m ρ) c).trans (by rw [head0Rows_eq, head0_eq]))
  rw [Host.return_y0, hcol]
  rfl

/-- The third result (the encoded array, which the second region only reads) is the reference's third result. -/
theorem result_encoded :
    W7 m ρ c (Proc.devRef .tc main_v2_0) = val_main_v4 (F := Ideal) (a0 m c) (a3 m c) (a4 m c) :=
  (Host.return_encoded m ρ c).trans ((W6_arr m ρ c 0).trans
    (((dat1 (V5 m ρ) c).arrAt_in 0 rfl _).trans ((A_eq1 (V5 m ρ) c 0).trans (entry1_encoded m ρ c))))

end Cert.KernelIdeal.Results

end
-- ==== Proof.lean ====
/-
  The certificate of the two-stage node-regression kernel against its plain reference, over the extended reals.

  The kernel program runs a first Pallas region that, in 20 blocks of 5000 rows, encodes each node's feature row,
  r = max (x · Wphi + bphi, 0), and projects the treated row, g = (t · r) · Wgnn; then, on the host, the
  message-passing step over the edge list (self-loops added, symmetric inverse-square-root degree normalisation,
  gather, scale, sum into the targets) on the projected array; then a second Pallas region that, again in 20 blocks
  of 5000 rows, lays r and the aggregate row plus its bias side by side and applies the two heads, a hidden layer
  max (z · W + b, 0) and a linear read-out each, with the LAST matrix and bias row of the stacked head parameters. The
  reference does the same with whole-array host operations; its loop over the stacked parameters keeps only the last
  iteration's values, which are the ones it returns.

  Why the two agree on extended reals, index by index:
  * a change of float format is the identity there, so the kernel's narrowing of matrix-unit operands changes nothing;
  * the matrix unit into a zero accumulator and the host's dot product are the same finite sum at every entry, and both
    programs multiply and add in the same order otherwise, so every row of the encoded and projected arrays and of the
    two head columns is the same row function of the arguments, whether computed per block of rows or on the whole batch
    (no law is used that would need finite inputs; the precondition is never opened);
  * the blocks of 5000 rows tile the arrays, so each region's output arrays hold those rows at every row of the batch;
  * the message-passing step is the same sequence of host operations in both programs, applied to equal arrays.

  Parts: Net.lean (the row functions), Region0.lean and Region1.lean (each region's output arrays as whole-array
  functions of its entry contents), KernelHost.lean (the kernel program's host operations), RefRows.lean (the
  reference's stages row by row), Bridge.lean (the kernel's three results are the reference's), KernelRun.lean (the
  kernel program's run with every buffer named), RefRun.lean and RefRead.lean (the reference's run and stages).
-/
import proofs.«179344_j58909771432452_1_alg».proof.Defs
import proofs.«179344_j58909771432452_1_alg».proof.Proof.Gen.Kernel
import proofs.«179344_j58909771432452_1_alg».proof.Proof.Gen.Kernel.Frame
import proofs.«179344_j58909771432452_1_alg».proof.Proof.Gen.KernelIdeal
import proofs.«179344_j58909771432452_1_alg».proof.Proof.Gen.KernelIdeal.Frame
import proofs.«179344_j58909771432452_1_alg».proof.Proof.Gen.ReferenceIdeal
import proofs.«179344_j58909771432452_1_alg».proof.Proof.Gen.Pre_finite_inputs
import proofs.«179344_j58909771432452_1_alg».proof.Proof.RefRun
import proofs.«179344_j58909771432452_1_alg».proof.Proof.RefRead
import proofs.«179344_j58909771432452_1_alg».proof.Proof.KernelRun
import proofs.«179344_j58909771432452_1_alg».proof.Proof.Bridge
import Idealize.ShloMosaic.Adequacy
import Idealize.ShloMosaic.Init

set_option maxRecDepth 16384

noncomputable section

namespace Cert.Proof

open Idealize.ShloMosaic Idealize.SL.Sem

/-- The kernel program as printed runs, and its arguments end as launched. -/
theorem frame_kernel : Cert.frame_Kernel := fun m ρ _ => Cert.Kernel.Gen.frame m ρ

/-- The idealized kernel program runs, and its arguments end as launched. -/
theorem frame_kernelIdeal : Cert.frame_KernelIdeal := fun m ρ _ => Cert.KernelIdeal.Gen.frame m ρ

/-- The idealized reference runs, and its arguments end as launched: its run, the results dropped. -/
theorem frame_referenceIdeal : Cert.frame_ReferenceIdeal := fun m ρ _ =>
  (θ_run Cert.ReferenceIdeal.defs _ _).mono (fun _ h c => (h c).2.2.2) (Cert.ReferenceIdeal.ValueP.run (F := Ideal) m ρ)

/-- The ideal pass rewrote nothing. -/
theorem preserves : Cert.preserves_Kernel_KernelIdeal := trivial

open Cert.KernelIdeal Cert.KernelIdeal.Gen in
/-- From memories that agree on the arguments both idealized programs run and end with the same three results: the
    reference's stages of the (kernel's) arguments. -/
theorem algebraic : Cert.algebraic_KernelIdeal_ReferenceIdeal := by
  intro m ρ m' ρ' _ hagree
  refine ⟨fun c => Cert.ReferenceIdeal.ReadP.val_main_v101 (F := Ideal) (Results.a0 m c) (Results.a1 m c) (Results.a2 m c)
        (Results.a3 m c) (Results.a4 m c) (Results.a5 m c) (Results.a6 m c) (Results.a9 m c) (Results.a10 m c) (Results.a13 m c) (Results.a14 m c),
      fun c => Cert.ReferenceIdeal.ReadP.val_main_v96 (F := Ideal) (Results.a0 m c) (Results.a1 m c) (Results.a2 m c)
        (Results.a3 m c) (Results.a4 m c) (Results.a5 m c) (Results.a6 m c) (Results.a7 m c) (Results.a8 m c) (Results.a11 m c) (Results.a12 m c),
      fun c => Cert.ReferenceIdeal.ReadP.val_main_v4 (F := Ideal) (Results.a0 m c) (Results.a3 m c) (Results.a4 m c), ?_, ?_⟩
  · -- the kernel program: every buffer at the last boundary's contents, the results and the arguments read there
    refine (θ_run Cert.KernelIdeal.defs _ _).mono (fun r h c => ?_) (Cert.KernelIdeal.GenP.run_boundary (F := Ideal) m ρ)
    exact ⟨(h c _ (mem_uc main_v61 (by decide))).trans (Results.result_y1 m ρ c),
      (h c _ (mem_uc main_v60 (by decide))).trans (Results.result_y0 m ρ c),
      (h c _ (mem_uc main_v2_0 (by decide))).trans (Results.result_encoded m ρ c),
      (h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c),
      (h c _ (mem_uc main_arg10 (by decide))).trans (W7_main_arg10 m ρ c),
      (h c _ (mem_uc main_arg11 (by decide))).trans (W7_main_arg11 m ρ c),
      (h c _ (mem_uc main_arg12 (by decide))).trans (W7_main_arg12 m ρ c),
      (h c _ (mem_uc main_arg13 (by decide))).trans (W7_main_arg13 m ρ c),
      (h c _ (mem_uc main_arg14 (by decide))).trans (W7_main_arg14 m ρ c)⟩
  · -- the reference: its run, each result's term read as its stage, the arguments moved across the agreement
    refine (θ_run Cert.ReferenceIdeal.defs _ _).mono (fun r h c => ?_) (Cert.ReferenceIdeal.ValueP.run (F := Ideal) m' ρ')
    obtain ⟨g0, g1, g2, g3, g4, g5, g6, g7, g8, g9, g10, g11, g12, g13, g14⟩ := hagree c
    refine ⟨(h c).1.trans ?_, (h c).2.1.trans ?_, (h c).2.2.1.trans ?_, (h c).2.2.2⟩
    · rw [Cert.ReferenceIdeal.ReadP.val_main_v101_eq, g0, g1, g2, g3, g4, g5, g6, g9, g10, g13, g14]
    · rw [Cert.ReferenceIdeal.ReadP.val_main_v96_eq, g0, g1, g2, g3, g4, g5, g6, g7, g8, g11, g12]
    · rw [g0, g3, g4]
      exact Cert.ReferenceIdeal.ReadP.val_main_v4_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
